-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x50176 : Shape := ⟨2, ![1000, 50176]⟩
abbrev S50176x1024 : Shape := ⟨2, ![50176, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S1000x50176 : S_.BroadcastsInDim S1000x50176 (![] : Fin 0 → Fin S1000x50176.rank)
  reducesTo_S1000x50176_S_d0_1 : S1000x50176.ReducesTo [0, 1] S_
  h_S_ : 0 < S_.numel
  bcast_S_S50176x1024 : S_.BroadcastsInDim S50176x1024 (![] : Fin 0 → Fin S50176x1024.rank)
  reducesTo_S50176x1024_S_d0_1 : S50176x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S1000x50176 .f32) (main_arg1 : FVec F S50176x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S1000x50176 .f32 := Host.absf main_arg0
  let main_cst : FVec F S_ .f32 := constant S_ .f32 0x7F800000#32
  let main_v1 : FVec F S1000x50176 .f32 := broadcastInDim S1000x50176 ![] bcast_S_S1000x50176 main_cst
  let main_v2 : IVec S1000x50176 1 := cmpf .olt main_v0 main_v1
  let main_c : IVec S_ 1 := constantI S_ 1 1#1
  let main_v3 : IVec S_ 1 := (fun x v => Host.reduce IntOp.andi x v reducesTo_S1000x50176_S_d0_1 h_S_) main_v2 main_c
  let main_v4 : FVec F S50176x1024 .f32 := Host.absf main_arg1
  let main_cst_0 : FVec F S_ .f32 := constant S_ .f32 0x7F800000#32
  let main_v5 : FVec F S50176x1024 .f32 := broadcastInDim S50176x1024 ![] bcast_S_S50176x1024 main_cst_0
  let main_v6 : IVec S50176x1024 1 := cmpf .olt main_v4 main_v5
  let main_c_1 : IVec S_ 1 := constantI S_ 1 1#1
  let main_v7 : IVec S_ 1 := (fun x v => Host.reduce IntOp.andi x v reducesTo_S50176x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S1000x50176 : Shape := ⟨2, ![1000, 50176]⟩
abbrev S50176x1024 : Shape := ⟨2, ![50176, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S1x1024 : Shape := ⟨2, ![1, 1024]⟩
abbrev S1000x128 : Shape := ⟨2, ![1000, 128]⟩
abbrev S200x3584 : Shape := ⟨2, ![200, 3584]⟩
abbrev S3584x1024 : Shape := ⟨2, ![3584, 1024]⟩
abbrev S200x128 : Shape := ⟨2, ![200, 128]⟩
abbrev S200x1024 : Shape := ⟨2, ![200, 1024]⟩
abbrev S1000x4 : Shape := ⟨2, ![1000, 4]⟩
abbrev S1000x12 : Shape := ⟨2, ![1000, 12]⟩

abbrev nBuf : Space → Nat
  | .hbm => 23
  | .vmem => 12
  | .smem => 0
  | _ => 0

abbrev bufTy : (tb : Table) → Fin (tcTables nBuf tb) → BufTy
  | .hbm, ⟨0, _⟩ => ⟨S1000x50176, .f32⟩
  | .hbm, ⟨1, _⟩ => ⟨S50176x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S16, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x1024, .f32⟩
  | .hbm, ⟨19, _⟩ => ⟨S1x1024, .f32⟩
  | .hbm, ⟨20, _⟩ => ⟨S1000x128, .f32⟩
  | .hbm, ⟨21, _⟩ => ⟨S1000x4, .f32⟩
  | .hbm, ⟨22, _⟩ => ⟨S1000x12, .f32⟩
  | .local _ .vmem, ⟨0, _⟩ => ⟨S200x3584, .f32⟩
  | .local _ .vmem, ⟨1, _⟩ => ⟨S200x3584, .f32⟩
  | .local _ .vmem, ⟨2, _⟩ => ⟨S3584x1024, .f32⟩
  | .local _ .vmem, ⟨3, _⟩ => ⟨S3584x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x128, .f32⟩
  | .local _ .vmem, ⟨8, _⟩ => ⟨S1x128, .f32⟩
  | .local _ .vmem, ⟨9, _⟩ => ⟨S200x128, .f32⟩
  | .local _ .vmem, ⟨10, _⟩ => ⟨S200x128, .f32⟩
  | .local _ .vmem, ⟨11, _⟩ => ⟨S200x1024, .f32⟩
  | _, _ => ⟨S1000x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![5, 14], ![false, false]⟩

def k0_cond2 (i : grid0.Coords) : BitVec 1 :=
  let arg1 : BitVec 32 := BitVec.ofNat 32 (i 1).val
  let c13_i32 : BitVec 32 := 13#32
  let v11 : BitVec 1 := Scalar.cmpi .eq arg1 c13_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S200x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3584x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  concatenates_S1024x4_S1024x12_S1024x16_d1 : Shape.Concatenates [S1024x4, S1024x12] S1024x16 1
  pads_S1024x16_S1024x128_000_01120 : S1024x16.Pads (![0, 0] : Fin 2 → Nat) ![0, 112] ![0, 0] S1024x128
  h_S_ : 0 < S_.numel
  concatenates_S4_S12_S16_d0 : Shape.Concatenates [S4, S12] S16 0
  pads_S16_S128_01120 : S16.Pads (![0] : Fin 1 → Nat) ![112] ![0] S128
  shapeCasts_S128_S1x128 : S128.ShapeCasts S1x128
  shapeCasts_S1024_S1x1024 : S1024.ShapeCasts S1x1024
  inb_S200x1024_S200x1024_0_0 : ∀ a, (![0, 0] : Fin 2 → Nat) a + S200x1024.size a ≤ S200x1024.size a
  h_S200x1024 : 0 < S200x1024.numel
  shapeCasts_S200x1024_S200x1024 : S200x1024.ShapeCasts S200x1024
  inb_S200x3584_S200x3584_0_0 : ∀ a, (![0, 0] : Fin 2 → Nat) a + S200x3584.size a ≤ S200x3584.size a
  h_S200x3584 : 0 < S200x3584.numel
  inb_S3584x1024_S3584x1024_0_0 : ∀ a, (![0, 0] : Fin 2 → Nat) a + S3584x1024.size a ≤ S3584x1024.size a
  h_S3584x1024 : 0 < S3584x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S200x1024 : S1x1024.Broadcasts S200x1024
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  slices_S1000x128_S1000x4_0_0 : S1000x128.Slices ![0, 0] S1000x4
  slices_S1000x128_S1000x12_0_4 : S1000x128.Slices ![0, 4] S1000x12
  dot_S200x3584_S3584x1024_S200x1024_1_0_0_1_n_n_wf : DotDims.WF S200x3584 S3584x1024 S200x1024 [1] [0] [0] [1] [] []
  dot_S200x1024_S1024x1024_S200x1024_1_0_0_1_n_n_wf : DotDims.WF S200x1024 S1024x1024 S200x1024 [1] [0] [0] [1] [] []
  dot_S200x1024_S1024x128_S200x128_1_0_0_1_n_n_wf : DotDims.WF S200x1024 S1024x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x3584.size a ≤ S1000x50176.size a
  hwx0_0 : ∀ i : grid0.Coords, EltTy.bits .f32 = 32 ∨ (Rect.block (s := S1000x50176) S200x3584.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3584x1024.size a ≤ S50176x1024.size a
  hwx0_1 : ∀ i : grid0.Coords, EltTy.bits .f32 = 32 ∨ (Rect.block (s := S50176x1024) S3584x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x128.size a ≤ S1000x128.size a
  hwx0_7 : ∀ i : grid0.Coords, EltTy.bits .f32 = 32 ∨ (Rect.block (s := S1000x128) S200x128.size (cc0_transform_7 i) (hinb0_7 i)).WholeWords (EltTy.packing .f32)

variable [Facts₀]

def dot_S200x3584_S3584x1024_S200x1024_1_0_0_1_n_n : DotDims S200x3584 S3584x1024 S200x1024 where
  lhsContracting := [1]
  rhsContracting := [0]
  lhsNonContracting := [0]
  rhsNonContracting := [1]
  lhsBatch := []
  rhsBatch := []
  wf := dot_S200x3584_S3584x1024_S200x1024_1_0_0_1_n_n_wf
def dot_S200x1024_S1024x1024_S200x1024_1_0_0_1_n_n : DotDims S200x1024 S1024x1024 S200x1024 where
  lhsContracting := [1]
  rhsContracting := [0]
  lhsNonContracting := [0]
  rhsNonContracting := [1]
  lhsBatch := []
  rhsBatch := []
  wf := dot_S200x1024_S1024x1024_S200x1024_1_0_0_1_n_n_wf
def dot_S200x1024_S1024x128_S200x128_1_0_0_1_n_n : DotDims S200x1024 S1024x128 S200x128 where
  lhsContracting := [1]
  rhsContracting := [0]
  lhsNonContracting := [0]
  rhsNonContracting := [1]
  lhsBatch := []
  rhsBatch := []
  wf := dot_S200x1024_S1024x128_S200x128_1_0_0_1_n_n_wf

abbrev win0_0 : Pipeline.Window sig grid0 :=
  Pipeline.Window.ofSpec (Memref.whole main_arg0) S200x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3584x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1000x50176 : Shape := ⟨2, ![1000, 50176]⟩
abbrev S50176x1024 : Shape := ⟨2, ![50176, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1000x1024 : Shape := ⟨2, ![1000, 1024]⟩
abbrev S1x1024 : Shape := ⟨2, ![1, 1024]⟩
abbrev S_ : Shape := ⟨0, ![]⟩
abbrev S1000x4 : Shape := ⟨2, ![1000, 4]⟩
abbrev S1x4 : Shape := ⟨2, ![1, 4]⟩
abbrev S1000x12 : Shape := ⟨2, ![1000, 12]⟩
abbrev S1x12 : Shape := ⟨2, ![1, 12]⟩

abbrev nBuf : Space → Nat
  | .hbm => 31
  | .vmem => 0
  | .smem => 0
  | _ => 0

abbrev bufTy : (tb : Table) → Fin (tcTables nBuf tb) → BufTy
  | .hbm, ⟨0, _⟩ => ⟨S1000x50176, .f32⟩
  | .hbm, ⟨1, _⟩ => ⟨S50176x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S1000x1024, .f32⟩
  | .hbm, ⟨10, _⟩ => ⟨S1x1024, .f32⟩
  | .hbm, ⟨11, _⟩ => ⟨S1000x1024, .f32⟩
  | .hbm, ⟨12, _⟩ => ⟨S1000x1024, .f32⟩
  | .hbm, ⟨13, _⟩ => ⟨S_, .f32⟩
  | .hbm, ⟨14, _⟩ => ⟨S1000x1024, .f32⟩
  | .hbm, ⟨15, _⟩ => ⟨S1000x1024, .f32⟩
  | .hbm, ⟨16, _⟩ => ⟨S1000x1024, .f32⟩
  | .hbm, ⟨17, _⟩ => ⟨S1x1024, .f32⟩
  | .hbm, ⟨18, _⟩ => ⟨S1000x1024, .f32⟩
  | .hbm, ⟨19, _⟩ => ⟨S1000x1024, .f32⟩
  | .hbm, ⟨20, _⟩ => ⟨S_, .f32⟩
  | .hbm, ⟨21, _⟩ => ⟨S1000x1024, .f32⟩
  | .hbm, ⟨22, _⟩ => ⟨S1000x1024, .f32⟩
  | .hbm, ⟨23, _⟩ => ⟨S1000x4, .f32⟩
  | .hbm, ⟨24, _⟩ => ⟨S1x4, .f32⟩
  | .hbm, ⟨25, _⟩ => ⟨S1000x4, .f32⟩
  | .hbm, ⟨26, _⟩ => ⟨S1000x4, .f32⟩
  | .hbm, ⟨27, _⟩ => ⟨S1000x12, .f32⟩
  | .hbm, ⟨28, _⟩ => ⟨S1x12, .f32⟩
  | .hbm, ⟨29, _⟩ => ⟨S1000x12, .f32⟩
  | .hbm, ⟨30, _⟩ => ⟨S1000x12, .f32⟩
  | _, _ => ⟨S1000x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1000x1024_0_1 : S1x1024.BroadcastsInDim S1000x1024 (![0, 1] : Fin 2 → Fin S1000x1024.rank)
  bcast_S_S1000x1024 : S_.BroadcastsInDim S1000x1024 (![] : Fin 0 → Fin S1000x1024.rank)
  bcast_S4_S1x4_1 : S4.BroadcastsInDim S1x4 (![1] : Fin 1 → Fin S1x4.rank)
  bcast_S1x4_S1000x4_0_1 : S1x4.BroadcastsInDim S1000x4 (![0, 1] : Fin 2 → Fin S1000x4.rank)
  bcast_S12_S1x12_1 : S12.BroadcastsInDim S1x12 (![1] : Fin 1 → Fin S1x12.rank)
  bcast_S1x12_S1000x12_0_1 : S1x12.BroadcastsInDim S1000x12 (![0, 1] : Fin 2 → Fin S1000x12.rank)
  dot_S1000x50176_S50176x1024_S1000x1024_1_0_0_1_n_n_wf : DotDims.WF S1000x50176 S50176x1024 S1000x1024 [1] [0] [0] [1] [] []
  dot_S1000x1024_S1024x1024_S1000x1024_1_0_0_1_n_n_wf : DotDims.WF S1000x1024 S1024x1024 S1000x1024 [1] [0] [0] [1] [] []
  dot_S1000x1024_S1024x4_S1000x4_1_0_0_1_n_n_wf : DotDims.WF S1000x1024 S1024x4 S1000x4 [1] [0] [0] [1] [] []
  dot_S1000x1024_S1024x12_S1000x12_1_0_0_1_n_n_wf : DotDims.WF S1000x1024 S1024x12 S1000x12 [1] [0] [0] [1] [] []

variable [Facts₀]

def dot_S1000x50176_S50176x1024_S1000x1024_1_0_0_1_n_n : DotDims S1000x50176 S50176x1024 S1000x1024 where
  lhsContracting := [1]
  rhsContracting := [0]
  lhsNonContracting := [0]
  rhsNonContracting := [1]
  lhsBatch := []
  rhsBatch := []
  wf := dot_S1000x50176_S50176x1024_S1000x1024_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x4_S1000x4_1_0_0_1_n_n : DotDims S1000x1024 S1024x4 S1000x4 where
  lhsContracting := [1]
  rhsContracting := [0]
  lhsNonContracting := [0]
  rhsNonContracting := [1]
  lhsBatch := []
  rhsBatch := []
  wf := dot_S1000x1024_S1024x4_S1000x4_1_0_0_1_n_n_wf
def dot_S1000x1024_S1024x12_S1000x12_1_0_0_1_n_n : DotDims S1000x1024 S1024x12 S1000x12 where
  lhsContracting := [1]
  rhsContracting := [0]
  lhsNonContracting := [0]
  rhsNonContracting := [1]
  lhsBatch := []
  rhsBatch := []
  wf := dot_S1000x1024_S1024x12_S1000x12_1_0_0_1_n_n_wf

class Facts : Prop extends Facts₀ where

variable [Facts]
-- ==== Proof.Spec.lean ====
/-
  The mathematics both programs compute, stated once over plain coordinate functions into the extended reals.

  A two-layer perceptron with two linear heads acts on the rows of a matrix independently: a row `x` of 50176
  entries goes through `x ↦ max (x·W₁ + b₁) 0` (1024 entries), that through `h ↦ max (h·W₂ + b₂) 0` (1024 entries),
  and that through a linear head `h ↦ h·W + b`. Every product `x·W` is a finite sum of products of extended
  reals; nothing here uses more than that addition is commutative and associative, so no entry needs to be finite.

  The one law used between two arrangements of the first sum: the contraction over 50176 indices is the sum, over
  14 consecutive stretches of 3584 indices, of the contractions over each stretch.
-/
import Mathlib.Data.EReal.Basic
import Mathlib.Algebra.BigOperators.Fin
import Mathlib.Logic.Equiv.Fin.Basic

open scoped BigOperators

noncomputable section

namespace BoxHead

/-- The first layer on one row: `max (∑ⱼ xⱼ·W₁[j,l] + b₁[l]) 0`. -/
def hid1 (x : Fin 50176 → EReal) (W1 : Fin 50176 → Fin 1024 → EReal) (b1 : Fin 1024 → EReal) (l : Fin 1024) : EReal :=
  max (∑ j : Fin 50176, x j * W1 j l + b1 l) 0

/-- The rectified affine map from a pre-computed contraction `a` (the first layer once its sum is known). -/
def relu1 (a : Fin 1024 → EReal) (b1 : Fin 1024 → EReal) (l : Fin 1024) : EReal :=
  max (a l + b1 l) 0

/-- The second layer on one row of hidden values: `max (∑ⱼ hⱼ·W₂[j,l] + b₂[l]) 0`. -/
def hid2 (h : Fin 1024 → EReal) (W2 : Fin 1024 → Fin 1024 → EReal) (b2 : Fin 1024 → EReal) (l : Fin 1024) : EReal :=
  max (∑ j : Fin 1024, h j * W2 j l + b2 l) 0

/-- A linear head of any width on one row of hidden values: `∑ⱼ hⱼ·W[j,q] + b[q]`. -/
def head {n : ℕ} (h : Fin 1024 → EReal) (W : Fin 1024 → Fin n → EReal) (b : Fin n → EReal) (q : Fin n) : EReal :=
  ∑ j : Fin 1024, h j * W j q + b q

theorem hid1_eq_relu1 (x : Fin 50176 → EReal) (W1 : Fin 50176 → Fin 1024 → EReal) (b1 : Fin 1024 → EReal) :
    hid1 x W1 b1 = relu1 (fun l => ∑ j : Fin 50176, x j * W1 j l) b1 := rfl

/-- Index `j` of stretch `k`, among the 50176 = 14 · 3584 contraction indices. -/
def kidx (k : Fin 14) (j : Fin 3584) : Fin 50176 := ⟨3584 * k.val + j.val, by have := k.isLt; have := j.isLt; omega⟩

@[simp] theorem kidx_val (k : Fin 14) (j : Fin 3584) : (kidx k j).val = 3584 * k.val + j.val := rfl

/-- The pairs (stretch, index inside it) are exactly the 50176 indices. -/
def kidxEquiv : Fin 14 × Fin 3584 ≃ Fin 50176 :=
  (finProdFinEquiv (m := 14) (n := 3584)).trans (finCongr (by norm_num))

theorem kidxEquiv_apply (p : Fin 14 × Fin 3584) : kidxEquiv p = kidx p.1 p.2 := by
  apply Fin.ext
  simp [kidxEquiv, kidx, finProdFinEquiv]
  omega

/-- A sum over the 50176 indices is the sum over the 14 stretches of the sums inside each. -/
theorem sum_stretches {M : Type*} [AddCommMonoid M] (g : Fin 50176 → M) :
    ∑ k : Fin 14, ∑ j : Fin 3584, g (kidx k j) = ∑ i : Fin 50176, g i := by
  rw [← Fintype.sum_prod_type']
  refine Fintype.sum_equiv kidxEquiv _ _ fun p => ?_
  rw [kidxEquiv_apply]

/-- The stretches up to and including `k`, as a running sum over the naturals (a stretch past the 14th counts zero). -/
def upto {M : Type*} [AddCommMonoid M] (f : Fin 14 → M) (k : ℕ) : M :=
  ∑ kk ∈ Finset.range (k + 1), if h : kk < 14 then f ⟨kk, h⟩ else 0

theorem upto_zero {M : Type*} [AddCommMonoid M] (f : Fin 14 → M) : upto f 0 = f 0 := by
  simp [upto]

theorem upto_succ {M : Type*} [AddCommMonoid M] (f : Fin 14 → M) (k : ℕ) (h : k + 1 < 14) :
    upto f (k + 1) = upto f k + f ⟨k + 1, h⟩ := by
  unfold upto
  rw [Finset.sum_range_succ _ (k + 1), dif_pos h]

theorem upto_last {M : Type*} [AddCommMonoid M] (f : Fin 14 → M) : upto f 13 = ∑ k : Fin 14, f k := by
  unfold upto
  rw [Finset.sum_range]
  refine Finset.sum_congr rfl fun k _ => ?_
  rw [dif_pos k.isLt]

end BoxHead

end
-- ==== Proof.SpecArr.lean ====
/-
  Each result as ONE function of the argument arrays, over literal shapes: entry (R, q) of a result is the linear head
  `q` of the two hidden layers of row `R` of the first argument. Both programs' final arrays are stated as this term.
-/
import proofs.«144970_g2138893714091_cont_8to1_871_2_alg».proof.Proof.Spec
import Idealize.ShloMosaic.Lib.ValueIdx

noncomputable section

namespace BoxHead

open Idealize.ShloMosaic Idealize.ShloMosaic.ValueIdx

/-- The second hidden layer of row `R`. -/
def hidden (x0 : (⟨2, ![1000, 50176]⟩ : Shape).Idx → EReal) (x1 : (⟨2, ![50176, 1024]⟩ : Shape).Idx → EReal)
    (x2 : (⟨1, ![1024]⟩ : Shape).Idx → EReal) (x3 : (⟨2, ![1024, 1024]⟩ : Shape).Idx → EReal)
    (x4 : (⟨1, ![1024]⟩ : Shape).Idx → EReal) (R : Fin 1000) : Fin 1024 → EReal :=
  hid2 (hid1 (fun j => x0 (ix2 R j)) (fun j l => x1 (ix2 j l)) (fun l => x2 (ix1 l))) (fun j l => x3 (ix2 j l)) (fun l => x4 (ix1 l))

/-- A result of width `n`: the head with weights `W` and bias `b` on every row's hidden layer. -/
def outArr {n : ℕ} (x0 : (⟨2, ![1000, 50176]⟩ : Shape).Idx → EReal) (x1 : (⟨2, ![50176, 1024]⟩ : Shape).Idx → EReal)
    (x2 : (⟨1, ![1024]⟩ : Shape).Idx → EReal) (x3 : (⟨2, ![1024, 1024]⟩ : Shape).Idx → EReal)
    (x4 : (⟨1, ![1024]⟩ : Shape).Idx → EReal) (W : (⟨2, ![1024, n]⟩ : Shape).Idx → EReal) (b : (⟨1, ![n]⟩ : Shape).Idx → EReal) :
    (⟨2, ![1000, n]⟩ : Shape).Idx → EReal :=
  fun y => head (hidden x0 x1 x2 x3 x4 (y 0)) (fun j q => W (ix2 j q)) (fun q => b (ix1 q)) (y 1)

theorem outArr_apply {n : ℕ} (x0 : (⟨2, ![1000, 50176]⟩ : Shape).Idx → EReal) (x1 : (⟨2, ![50176, 1024]⟩ : Shape).Idx → EReal)
    (x2 : (⟨1, ![1024]⟩ : Shape).Idx → EReal) (x3 : (⟨2, ![1024, 1024]⟩ : Shape).Idx → EReal)
    (x4 : (⟨1, ![1024]⟩ : Shape).Idx → EReal) (W : (⟨2, ![1024, n]⟩ : Shape).Idx → EReal) (b : (⟨1, ![n]⟩ : Shape).Idx → EReal)
    (R : Fin 1000) (q : Fin n) :
    outArr x0 x1 x2 x3 x4 W b (ix2 R q)
      = head (hidden x0 x1 x2 x3 x4 R) (fun j q' => W (ix2 j q')) (fun q' => b (ix1 q')) q := rfl

end BoxHead

end
-- ==== Proof.RefSide.lean ====
/-
  The reference, read at one coordinate: each of its two results is the row-wise two-layer perceptron of `BoxHead`
  followed by its own linear head, on the row of the first argument that the coordinate names.
-/
import proofs.«144970_g2138893714091_cont_8to1_871_2_alg».proof.Proof.Gen.ReferenceIdeal.Read
import proofs.«144970_g2138893714091_cont_8to1_871_2_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.ValueIdx

/-! Index functions of the reference's operations, at an index given by its coordinates. -/

private theorem lidx_v0_ix2 (r : Fin 1000) (l : Fin 1024) (k : Fin 50176) : lidx_main_v0 (ix2 r l) k = ix2 r k :=
  funext fun a => by match a with | ⟨0, _⟩ => rfl | ⟨1, _⟩ => rfl

private theorem ridx_v0_ix2 (r : Fin 1000) (l : Fin 1024) (k : Fin 50176) : ridx_main_v0 (ix2 r l) k = ix2 k l :=
  funext fun a => by match a with | ⟨0, _⟩ => rfl | ⟨1, _⟩ => rfl

private theorem idx_v1_v2_ix2 (r : Fin 1000) (l : Fin 1024) : idx_main_v1 (idx_main_v2 (ix2 r l)) = ix1 l :=
  funext fun a => by match a with | ⟨0, _⟩ => rfl

private theorem lidx_v6_ix2 (r : Fin 1000) (l : Fin 1024) (k : Fin 1024) : lidx_main_v6 (ix2 r l) k = ix2 r k :=
  funext fun a => by match a with | ⟨0, _⟩ => rfl | ⟨1, _⟩ => rfl

private theorem ridx_v6_ix2 (r : Fin 1000) (l : Fin 1024) (k : Fin 1024) : ridx_main_v6 (ix2 r l) k = ix2 k l :=
  funext fun a => by match a with | ⟨0, _⟩ => rfl | ⟨1, _⟩ => rfl

private theorem idx_v7_v8_ix2 (r : Fin 1000) (l : Fin 1024) : idx_main_v7 (idx_main_v8 (ix2 r l)) = ix1 l :=
  funext fun a => by match a with | ⟨0, _⟩ => rfl

private theorem lidx_v12_ix2 (r : Fin 1000) (q : Fin 4) (k : Fin 1024) : lidx_main_v12 (ix2 r q) k = ix2 r k :=
  funext fun a => by match a with | ⟨0, _⟩ => rfl | ⟨1, _⟩ => rfl

private theorem ridx_v12_ix2 (r : Fin 1000) (q : Fin 4) (k : Fin 1024) : ridx_main_v12 (ix2 r q) k = ix2 k q :=
  funext fun a => by match a with | ⟨0, _⟩ => rfl | ⟨1, _⟩ => rfl

private theorem idx_v13_v14_ix2 (r : Fin 1000) (q : Fin 4) : idx_main_v13 (idx_main_v14 (ix2 r q)) = ix1 q :=
  funext fun a => by match a with | ⟨0, _⟩ => rfl

private theorem lidx_v16_ix2 (r : Fin 1000) (q : Fin 12) (k : Fin 1024) : lidx_main_v16 (ix2 r q) k = ix2 r k :=
  funext fun a => by match a with | ⟨0, _⟩ => rfl | ⟨1, _⟩ => rfl

private theorem ridx_v16_ix2 (r : Fin 1000) (q : Fin 12) (k : Fin 1024) : ridx_main_v16 (ix2 r q) k = ix2 k q :=
  funext fun a => by match a with | ⟨0, _⟩ => rfl | ⟨1, _⟩ => rfl

private theorem idx_v17_v18_ix2 (r : Fin 1000) (q : Fin 12) : idx_main_v17 (idx_main_v18 (ix2 r q)) = ix1 q :=
  funext fun a => by match a with | ⟨0, _⟩ => rfl

/-- The first rectified layer at (r, l): the contraction of row r with column l of the first weight, plus the bias, against zero. -/
private theorem v5_apply (x0 : (⟨S1000x50176, .f32⟩ : BufTy).Contents (Elt Ideal)) (x1 : (⟨S50176x1024, .f32⟩ : BufTy).Contents (Elt Ideal))
    (x2 : (⟨S1024, .f32⟩ : BufTy).Contents (Elt Ideal)) (r : Fin 1000) (l : Fin 1024) :
    val_main_v5 (F := Ideal) x0 x1 x2 (ix2 r l)
      = BoxHead.hid1 (fun j => x0 (ix2 r j)) (fun j l => x1 (ix2 j l)) (fun l => x2 (ix1 l)) l := by
  unfold BoxHead.hid1
  rw [val_main_v5_apply, val_main_v3_apply, val_main_v0_apply, val_main_v2_apply, val_main_v1_apply,
    val_main_v4_apply, val_main_cst_apply, idx_v1_v2_ix2, Ideal.ofBits_def, Ideal.ofBits_zero_f32,
    Ideal.addf_def, Ideal.maximumf_def]
  simp only [lidx_v0_ix2, ridx_v0_ix2]

/-- The second rectified layer at (r, l). -/
private theorem v11_apply (x0 : (⟨S1000x50176, .f32⟩ : BufTy).Contents (Elt Ideal)) (x1 : (⟨S50176x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (r : Fin 1000) (l : Fin 1024) :
    val_main_v11 (F := Ideal) x0 x1 x2 x3 x4 (ix2 r l)
      = BoxHead.hid2 (BoxHead.hid1 (fun j => x0 (ix2 r j)) (fun j l => x1 (ix2 j l)) (fun l => x2 (ix1 l)))
          (fun j l => x3 (ix2 j l)) (fun l => x4 (ix1 l)) l := by
  unfold BoxHead.hid2
  rw [val_main_v11_apply, val_main_v9_apply, val_main_v6_apply, val_main_v8_apply, val_main_v7_apply,
    val_main_v10_apply, val_main_cst_0_apply, idx_v7_v8_ix2, Ideal.ofBits_def, Ideal.ofBits_zero_f32,
    Ideal.addf_def, Ideal.maximumf_def]
  simp only [lidx_v6_ix2, ridx_v6_ix2, v5_apply]

/-- The 4-wide result at (r, q). -/
theorem v15_apply (x0 : (⟨S1000x50176, .f32⟩ : BufTy).Contents (Elt Ideal)) (x1 : (⟨S50176x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x4, .f32⟩ : BufTy).Contents (Elt Ideal))
    (x6 : (⟨S4, .f32⟩ : BufTy).Contents (Elt Ideal)) (r : Fin 1000) (q : Fin 4) :
    val_main_v15 (F := Ideal) x0 x1 x2 x3 x4 x5 x6 (ix2 r q)
      = BoxHead.head
          (BoxHead.hid2 (BoxHead.hid1 (fun j => x0 (ix2 r j)) (fun j l => x1 (ix2 j l)) (fun l => x2 (ix1 l)))
            (fun j l => x3 (ix2 j l)) (fun l => x4 (ix1 l)))
          (fun j q' => x5 (ix2 j q')) (fun q' => x6 (ix1 q')) q := by
  unfold BoxHead.head
  rw [val_main_v15_apply, val_main_v12_apply, val_main_v14_apply, val_main_v13_apply, idx_v13_v14_ix2, Ideal.addf_def]
  simp only [lidx_v12_ix2, ridx_v12_ix2, v11_apply]

/-- The 12-wide result at (r, q). -/
theorem v19_apply (x0 : (⟨S1000x50176, .f32⟩ : BufTy).Contents (Elt Ideal)) (x1 : (⟨S50176x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x7 : (⟨S1024x12, .f32⟩ : BufTy).Contents (Elt Ideal))
    (x8 : (⟨S12, .f32⟩ : BufTy).Contents (Elt Ideal)) (r : Fin 1000) (q : Fin 12) :
    val_main_v19 (F := Ideal) x0 x1 x2 x3 x4 x7 x8 (ix2 r q)
      = BoxHead.head
          (BoxHead.hid2 (BoxHead.hid1 (fun j => x0 (ix2 r j)) (fun j l => x1 (ix2 j l)) (fun l => x2 (ix1 l)))
            (fun j l => x3 (ix2 j l)) (fun l => x4 (ix1 l)))
          (fun j q' => x7 (ix2 j q')) (fun q' => x8 (ix1 q')) q := by
  unfold BoxHead.head
  rw [val_main_v19_apply, val_main_v16_apply, val_main_v18_apply, val_main_v17_apply, idx_v17_v18_ix2, Ideal.addf_def]
  simp only [lidx_v16_ix2, ridx_v16_ix2, v11_apply]

end Cert.ReferenceIdeal.RefSpec

end
-- ==== Proof.KPieces.lean ====
/-
  What one run of the kernel body leaves behind, as values.

  The body keeps a 200×1024 accumulator between grid points. At the first point of a row block it clears the
  accumulator and adds this point's partial product, leaving `0 + x·w`; at every later point it leaves `acc + x·w`
  of the accumulator `acc` it found; and at the last point of a row block it also stores the output block computed
  from the accumulator it has just updated.
-/
import proofs.«144970_g2138893714091_cont_8to1_871_2_alg».proof.Proof.Gen.KernelIdeal.Frame
import Idealize.ShloMosaic.Lib.Pipeline.Value
import Idealize.ShloMosaic.Lib.Tactic

set_option maxRecDepth 16384

noncomputable section

namespace Cert.KernelIdeal.KPieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

variable (c : Dev nD) (i : grid0.Coords)
  (arg2 : Memref sig .tc .vmem S200x3584 .f32) (harg2 : arg2.IsWhole) (arg3 : Memref sig .tc .vmem S3584x1024 .f32) (harg3 : arg3.IsWhole)
  (arg4 : Memref sig .tc .vmem S1x1024 .f32) (harg4 : arg4.IsWhole) (arg5 : Memref sig .tc .vmem S1024x1024 .f32) (harg5 : arg5.IsWhole)
  (arg6 : Memref sig .tc .vmem S1x1024 .f32) (harg6 : arg6.IsWhole) (arg7 : Memref sig .tc .vmem S1024x128 .f32) (harg7 : arg7.IsWhole)
  (arg8 : Memref sig .tc .vmem S1x128 .f32) (harg8 : arg8.IsWhole) (arg9 : Memref sig .tc .vmem S200x128 .f32) (harg9 : arg9.IsWhole)
  (arg10 : Memref sig .tc .vmem S200x1024 .f32) (harg10 : arg10.IsWhole)

/-- First point of a row block: the accumulator ends at the cleared block plus this point's partial product. -/
theorem scratch_A (hc0 : cond0_0 i) (hc1 : ¬cond0_1 i)
    (x0 : Vec F S200x3584 .f32) (x1 : Vec F S3584x1024 .f32) (x2 : Vec F S1x1024 .f32) (x3 : Vec F S1024x1024 .f32)
    (x4 : Vec F S1x1024 .f32) (x5 : Vec F S1024x128 .f32) (x6 : Vec F S1x128 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S200x1024) hz, View.readCov_unit_zero (S := S200x1024) _ hz]
  simp only [View.readAt_eq_ld, harg2.read_unread, harg3.read_unread, View.ld_unit_zero (S := S200x3584) hz, View.ld_unit_zero (S := S3584x1024) hz, View.ld_unit_zero (S := S200x1024) hz, View.ld_unit_zero (S := S1x1024) hz, View.ld_unit_zero (S := S1024x1024) hz, View.ld_unit_zero (S := S1024x128) hz, View.ld_unit_zero (S := S1x128) hz]

/-- A middle point: the accumulator it found plus this point's partial product. -/
theorem scratch_B (hc0 : ¬cond0_0 i) (hc1 : ¬cond0_1 i)
    (x0 : Vec F S200x3584 .f32) (x1 : Vec F S3584x1024 .f32) (x2 : Vec F S1x1024 .f32) (x3 : Vec F S1024x1024 .f32)
    (x4 : Vec F S1x1024 .f32) (x5 : Vec F S1024x128 .f32) (x6 : Vec F S1x128 .f32) (xs0 : Vec F S200x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg10.read_unread, harg2.read_unread, harg3.read_unread, View.ld_unit_zero (S := S200x3584) hz, View.ld_unit_zero (S := S3584x1024) hz, View.ld_unit_zero (S := S200x1024) hz, View.ld_unit_zero (S := S1x1024) hz, View.ld_unit_zero (S := S1024x1024) hz, View.ld_unit_zero (S := S1024x128) hz, View.ld_unit_zero (S := S1x128) hz]

/-- Last point of a row block: the accumulator likewise, -/
theorem scratch_C (hc0 : ¬cond0_0 i) (hc1 : cond0_1 i)
    (x0 : Vec F S200x3584 .f32) (x1 : Vec F S3584x1024 .f32) (x2 : Vec F S1x1024 .f32) (x3 : Vec F S1024x1024 .f32)
    (x4 : Vec F S1x1024 .f32) (x5 : Vec F S1024x128 .f32) (x6 : Vec F S1x128 .f32) (xs0 : Vec F S200x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg10.read_unread, harg2.read_unread, harg3.read_unread, View.ld_unit_zero (S := S200x3584) hz, View.ld_unit_zero (S := S3584x1024) hz, View.ld_unit_zero (S := S200x1024) hz, View.ld_unit_zero (S := S1x1024) hz, View.ld_unit_zero (S := S1024x1024) hz, View.ld_unit_zero (S := S1024x128) hz, View.ld_unit_zero (S := S1x128) hz]

/-- and the output block is the final computation applied to that updated accumulator. -/
theorem out_C (hc0 : ¬cond0_0 i) (hc1 : cond0_1 i)
    (x0 : Vec F S200x3584 .f32) (x1 : Vec F S3584x1024 .f32) (x2 : Vec F S1x1024 .f32) (x3 : Vec F S1024x1024 .f32)
    (x4 : Vec F S1x1024 .f32) (x5 : Vec F S1024x128 .f32) (x6 : Vec F S1x128 .f32) (xs0 : Vec F S200x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 xs0 x0 x1) x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, View.readCov_unit_zero (S := S200x1024) _ hz, harg10.read_unread, harg2.read_unread, harg3.read_unread, harg4.read_unread, harg5.read_unread, harg6.read_unread, harg7.read_unread, harg8.read_unread, View.ld_unit_zero (S := S200x3584) hz, View.ld_unit_zero (S := S3584x1024) hz, View.ld_unit_zero (S := S200x1024) hz, View.ld_unit_zero (S := S1x1024) hz, View.ld_unit_zero (S := S1024x1024) hz, View.ld_unit_zero (S := S1024x128) hz, View.ld_unit_zero (S := S1x128) hz]

end Cert.KernelIdeal.KPieces

end
-- ==== Proof.KBlocks.lean ====
/-
  What each window's block is, read at one coordinate inside the block.

  The grid has 70 points, point `t` being row block `t / 14` and contraction stretch `t % 14`. The first operand's
  block at `t` is rows `200·(t/14) + r`, columns `3584·(t%14) + j` of the first argument; the second operand's is rows
  `3584·(t%14) + j` of the second argument, all 1024 columns. The five small operands are staged whole, so their
  block is the array itself. (A block's coordinate is always block index × block size + the coordinate inside it.)
-/
import proofs.«144970_g2138893714091_cont_8to1_871_2_alg».proof.Proof.Gen.KernelIdeal.Frame
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The index maps over the grid, decided once -/

theorem idx0 : ∀ t : Fin cfg0.N, win0_0.index t (0 : Fin 2) = t.val / 14 ∧ win0_0.index t (1 : Fin 2) = t.val % 14 :=
  (by decide +kernel : ∀ t : Fin grid0.N, win0_0.index t (0 : Fin 2) = t.val / 14 ∧ win0_0.index t (1 : Fin 2) = t.val % 14)
theorem idx1 : ∀ t : Fin cfg0.N, win0_1.index t (0 : Fin 2) = t.val % 14 ∧ win0_1.index t (1 : Fin 2) = 0 :=
  (by decide +kernel : ∀ t : Fin grid0.N, win0_1.index t (0 : Fin 2) = t.val % 14 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = t.val / 14 ∧ win0_7.index t (1 : Fin 2) = 0 :=
  (by decide +kernel : ∀ t : Fin grid0.N, win0_7.index t (0 : Fin 2) = t.val / 14 ∧ win0_7.index t (1 : Fin 2) = 0)

/-! ## The two large operands -/

/-- The first operand's block at point `t`, entry (r, j): the first argument at row `200·(t/14) + r`, column `3584·(t%14) + j`. -/
theorem iblk0_apply (c : Dev nD) (t : Fin cfg0.N) (r : Fin 200) (j : Fin 3584) (R : Fin 1000) (J : Fin 50176)
    (hR : R.val = 200 * (t.val / 14) + r.val) (hJ : J.val = 3584 * (t.val % 14) + j.val) :
    (iblk m c 0 t : S200x3584.Idx → F .f32) (ix2 r j) = (V m c main_arg0 : S1000x50176.Idx → F .f32) (ix2 R J) := by
  unfold iblk
  rw [View.read_apply]
  show V m c main_arg0 _ = V m c main_arg0 _
  congr 1
  funext a
  apply Fin.ext
  match a with
  | ⟨0, _⟩ => show win0_0.index t 0 * 200 + 1 * r.val = R.val; rw [(idx0 t).1, hR]; omega
  | ⟨1, _⟩ => show win0_0.index t 1 * 3584 + 1 * j.val = J.val; rw [(idx0 t).2, hJ]; omega

/-- The second operand's block at point `t`, entry (j, l): the second argument at row `3584·(t%14) + j`, column `l`. -/
theorem iblk1_apply (c : Dev nD) (t : Fin cfg0.N) (j : Fin 3584) (l : Fin 1024) (J : Fin 50176)
    (hJ : J.val = 3584 * (t.val % 14) + j.val) :
    (iblk m c 1 t : S3584x1024.Idx → F .f32) (ix2 j l) = (V m c main_arg1 : S50176x1024.Idx → F .f32) (ix2 J l) := by
  unfold iblk
  rw [View.read_apply]
  show V m c main_arg1 _ = V m c main_arg1 _
  congr 1
  funext a
  apply Fin.ext
  match a with
  | ⟨0, _⟩ => show win0_1.index t 0 * 3584 + 1 * j.val = J.val; rw [(idx1 t).1, hJ]; omega
  | ⟨1, _⟩ => show win0_1.index t 1 * 1024 + 1 * l.val = l.val; rw [(idx1 t).2]; omega

/-! ## The five operands staged whole -/

theorem iblk2_eq (c : Dev nD) (t : Fin cfg0.N) : (iblk m c 2 t : S1x1024.Idx → F .f32) = V m c main_v5 := by
  funext y
  unfold iblk
  rw [View.read_apply]
  show V m c main_v5 _ = V m c main_v5 _
  congr 1
  funext a
  apply Fin.ext
  match a with
  | ⟨0, _⟩ => show win0_2.index t 0 * 1 + 1 * (y 0).val = (y 0).val; rw [(idx2 t).1]; omega
  | ⟨1, _⟩ => show win0_2.index t 1 * 1024 + 1 * (y 1).val = (y 1).val; rw [(idx2 t).2]; omega

theorem iblk3_eq (c : Dev nD) (t : Fin cfg0.N) : (iblk m c 3 t : S1024x1024.Idx → F .f32) = V m c main_arg3 := by
  funext y
  unfold iblk
  rw [View.read_apply]
  show V m c main_arg3 _ = V m c main_arg3 _
  congr 1
  funext a
  apply Fin.ext
  match a with
  | ⟨0, _⟩ => show win0_3.index t 0 * 1024 + 1 * (y 0).val = (y 0).val; rw [(idx3 t).1]; omega
  | ⟨1, _⟩ => show win0_3.index t 1 * 1024 + 1 * (y 1).val = (y 1).val; rw [(idx3 t).2]; omega

theorem iblk4_eq (c : Dev nD) (t : Fin cfg0.N) : (iblk m c 4 t : S1x1024.Idx → F .f32) = V m c main_v6 := by
  funext y
  unfold iblk
  rw [View.read_apply]
  show V m c main_v6 _ = V m c main_v6 _
  congr 1
  funext a
  apply Fin.ext
  match a with
  | ⟨0, _⟩ => show win0_4.index t 0 * 1 + 1 * (y 0).val = (y 0).val; rw [(idx4 t).1]; omega
  | ⟨1, _⟩ => show win0_4.index t 1 * 1024 + 1 * (y 1).val = (y 1).val; rw [(idx4 t).2]; omega

theorem iblk5_eq (c : Dev nD) (t : Fin cfg0.N) : (iblk m c 5 t : S1024x128.Idx → F .f32) = V m c main_v1 := by
  funext y
  unfold iblk
  rw [View.read_apply]
  show V m c main_v1 _ = V m c main_v1 _
  congr 1
  funext a
  apply Fin.ext
  match a with
  | ⟨0, _⟩ => show win0_5.index t 0 * 1024 + 1 * (y 0).val = (y 0).val; rw [(idx5 t).1]; omega
  | ⟨1, _⟩ => show win0_5.index t 1 * 128 + 1 * (y 1).val = (y 1).val; rw [(idx5 t).2]; omega

theorem iblk6_eq (c : Dev nD) (t : Fin cfg0.N) : (iblk m c 6 t : S1x128.Idx → F .f32) = V m c main_v4 := by
  funext y
  unfold iblk
  rw [View.read_apply]
  show V m c main_v4 _ = V m c main_v4 _
  congr 1
  funext a
  apply Fin.ext
  match a with
  | ⟨0, _⟩ => show win0_6.index t 0 * 1 + 1 * (y 0).val = (y 0).val; rw [(idx6 t).1]; omega
  | ⟨1, _⟩ => show win0_6.index t 1 * 128 + 1 * (y 1).val = (y 1).val; rw [(idx6 t).2]; omega

end Cert.KernelIdeal.KBlocks

end
-- ==== Proof.KPay.lean ====
/-
  The kernel body's three stored values, read at one coordinate over the extended reals.

  The reset stores the zero block. The accumulation stores `acc + x·w`: at row `r` and column `l`, the accumulator
  there plus the sum over the 3584 contraction indices of this stretch. The last step stores, from the finished
  accumulator, the two rectified layers and the padded linear head of `BoxHead`.
-/
import proofs.«144970_g2138893714091_cont_8to1_871_2_alg».proof.Proof.Gen.KernelIdeal.Skeleton
import proofs.«144970_g2138893714091_cont_8to1_871_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-! ### The contraction `S200x3584 · S3584x1024`: the operand coordinates at an output coordinate and a contraction index -/

/-- The left operand's row is the output's row. -/
theorem lhs_acc_0 (i : S200x1024.Idx) (q : dot_S200x3584_S3584x1024_S200x1024_1_0_0_1_n_n.contr.Idx) :
    (dot_S200x3584_S3584x1024_S200x1024_1_0_0_1_n_n.lhsIdx i q 0).val = (i 0).val := by
  unfold DotDims.lhsIdx
  rw [dif_neg (show ¬(0 : Fin S200x3584.rank) ∈ dot_S200x3584_S3584x1024_S200x1024_1_0_0_1_n_n.lhsBatch by decide), dif_pos (show (0 : Fin S200x3584.rank) ∈ dot_S200x3584_S3584x1024_S200x1024_1_0_0_1_n_n.lhsNonContracting by decide)]
  rfl
/-- The left operand's column is the contraction index. -/
theorem lhs_acc_1 (i : S200x1024.Idx) (q : dot_S200x3584_S3584x1024_S200x1024_1_0_0_1_n_n.contr.Idx) :
    (dot_S200x3584_S3584x1024_S200x1024_1_0_0_1_n_n.lhsIdx i q 1).val = (q ⟨0, by decide⟩).val :=
  dot_S200x3584_S3584x1024_S200x1024_1_0_0_1_n_n.lhsIdx_val_of_single rfl i q
/-- The right operand's row is the contraction index. -/
theorem rhs_acc_0 (i : S200x1024.Idx) (q : dot_S200x3584_S3584x1024_S200x1024_1_0_0_1_n_n.contr.Idx) :
    (dot_S200x3584_S3584x1024_S200x1024_1_0_0_1_n_n.rhsIdx i q 0).val = (q ⟨0, by decide⟩).val :=
  dot_S200x3584_S3584x1024_S200x1024_1_0_0_1_n_n.rhsIdx_val_of_single rfl i q
/-- The right operand's column is the output's column. -/
theorem rhs_acc_1 (i : S200x1024.Idx) (q : dot_S200x3584_S3584x1024_S200x1024_1_0_0_1_n_n.contr.Idx) :
    (dot_S200x3584_S3584x1024_S200x1024_1_0_0_1_n_n.rhsIdx i q 1).val = (i 1).val := by
  unfold DotDims.rhsIdx
  rw [dif_neg (show ¬(1 : Fin S3584x1024.rank) ∈ dot_S200x3584_S3584x1024_S200x1024_1_0_0_1_n_n.rhsBatch by decide), dif_pos (show (1 : Fin S3584x1024.rank) ∈ dot_S200x3584_S3584x1024_S200x1024_1_0_0_1_n_n.rhsNonContracting by decide)]
  rfl

/-- Into the zero block, the product read at (r, c) is `∑ₖ lhs[r,k] · rhs[k,c]`. -/
theorem matmul_acc_apply (lhs : FVec Ideal S200x3584 .f32) (rhs : FVec Ideal S3584x1024 .f32) (i : S200x1024.Idx) :
    matmul dot_S200x3584_S3584x1024_S200x1024_1_0_0_1_n_n none lhs rhs (constant (F := Ideal) S200x1024 .f32 0x00000000#32) i
      = ∑ k : Fin 3584, lhs (ix2 (i 0) k) * rhs (ix2 k (i 1)) := by
  simp only [matmul]
  rw [Ideal.matmul_constant_zero_apply, ← Equiv.sum_comp (ValueIdx.contrEquiv1 dot_S200x3584_S3584x1024_S200x1024_1_0_0_1_n_n 3584 rfl rfl).symm]
  refine Finset.sum_congr rfl fun k _ => ?_
  have hk := ValueIdx.contrEquiv1_symm_val dot_S200x3584_S3584x1024_S200x1024_1_0_0_1_n_n 3584 rfl rfl k
  have el : dot_S200x3584_S3584x1024_S200x1024_1_0_0_1_n_n.lhsIdx i ((ValueIdx.contrEquiv1 dot_S200x3584_S3584x1024_S200x1024_1_0_0_1_n_n 3584 rfl rfl).symm k) = (ix2 (i 0) k : S200x3584.Idx) := funext fun a => Fin.ext (by
    match a with
    | ⟨0, _⟩ => exact lhs_acc_0 _ _
    | ⟨1, _⟩ => exact (lhs_acc_1 _ _).trans hk)
  have er : dot_S200x3584_S3584x1024_S200x1024_1_0_0_1_n_n.rhsIdx i ((ValueIdx.contrEquiv1 dot_S200x3584_S3584x1024_S200x1024_1_0_0_1_n_n 3584 rfl rfl).symm k) = (ix2 k (i 1) : S3584x1024.Idx) := funext fun a => Fin.ext (by
    match a with
    | ⟨0, _⟩ => exact (rhs_acc_0 _ _).trans hk
    | ⟨1, _⟩ => exact rhs_acc_1 _ _)
  exact congrArg₂ (· * ·) (congrArg lhs el) (congrArg rhs er)

/-! ### The contraction `S200x1024 · S1024x1024`: the operand coordinates at an output coordinate and a contraction index -/

/-- The left operand's row is the output's row. -/
theorem lhs_hid_0 (i : S200x1024.Idx) (q : dot_S200x1024_S1024x1024_S200x1024_1_0_0_1_n_n.contr.Idx) :
    (dot_S200x1024_S1024x1024_S200x1024_1_0_0_1_n_n.lhsIdx i q 0).val = (i 0).val := by
  unfold DotDims.lhsIdx
  rw [dif_neg (show ¬(0 : Fin S200x1024.rank) ∈ dot_S200x1024_S1024x1024_S200x1024_1_0_0_1_n_n.lhsBatch by decide), dif_pos (show (0 : Fin S200x1024.rank) ∈ dot_S200x1024_S1024x1024_S200x1024_1_0_0_1_n_n.lhsNonContracting by decide)]
  rfl
/-- The left operand's column is the contraction index. -/
theorem lhs_hid_1 (i : S200x1024.Idx) (q : dot_S200x1024_S1024x1024_S200x1024_1_0_0_1_n_n.contr.Idx) :
    (dot_S200x1024_S1024x1024_S200x1024_1_0_0_1_n_n.lhsIdx i q 1).val = (q ⟨0, by decide⟩).val :=
  dot_S200x1024_S1024x1024_S200x1024_1_0_0_1_n_n.lhsIdx_val_of_single rfl i q
/-- The right operand's row is the contraction index. -/
theorem rhs_hid_0 (i : S200x1024.Idx) (q : dot_S200x1024_S1024x1024_S200x1024_1_0_0_1_n_n.contr.Idx) :
    (dot_S200x1024_S1024x1024_S200x1024_1_0_0_1_n_n.rhsIdx i q 0).val = (q ⟨0, by decide⟩).val :=
  dot_S200x1024_S1024x1024_S200x1024_1_0_0_1_n_n.rhsIdx_val_of_single rfl i q
/-- The right operand's column is the output's column. -/
theorem rhs_hid_1 (i : S200x1024.Idx) (q : dot_S200x1024_S1024x1024_S200x1024_1_0_0_1_n_n.contr.Idx) :
    (dot_S200x1024_S1024x1024_S200x1024_1_0_0_1_n_n.rhsIdx i q 1).val = (i 1).val := by
  unfold DotDims.rhsIdx
  rw [dif_neg (show ¬(1 : Fin S1024x1024.rank) ∈ dot_S200x1024_S1024x1024_S200x1024_1_0_0_1_n_n.rhsBatch by decide), dif_pos (show (1 : Fin S1024x1024.rank) ∈ dot_S200x1024_S1024x1024_S200x1024_1_0_0_1_n_n.rhsNonContracting by decide)]
  rfl

/-- Into the zero block, the product read at (r, c) is `∑ₖ lhs[r,k] · rhs[k,c]`. -/
theorem matmul_hid_apply (lhs : FVec Ideal S200x1024 .f32) (rhs : FVec Ideal S1024x1024 .f32) (i : S200x1024.Idx) :
    matmul dot_S200x1024_S1024x1024_S200x1024_1_0_0_1_n_n none lhs rhs (constant (F := Ideal) S200x1024 .f32 0x00000000#32) i
      = ∑ k : Fin 1024, lhs (ix2 (i 0) k) * rhs (ix2 k (i 1)) := by
  simp only [matmul]
  rw [Ideal.matmul_constant_zero_apply, ← Equiv.sum_comp (ValueIdx.contrEquiv1 dot_S200x1024_S1024x1024_S200x1024_1_0_0_1_n_n 1024 rfl rfl).symm]
  refine Finset.sum_congr rfl fun k _ => ?_
  have hk := ValueIdx.contrEquiv1_symm_val dot_S200x1024_S1024x1024_S200x1024_1_0_0_1_n_n 1024 rfl rfl k
  have el : dot_S200x1024_S1024x1024_S200x1024_1_0_0_1_n_n.lhsIdx i ((ValueIdx.contrEquiv1 dot_S200x1024_S1024x1024_S200x1024_1_0_0_1_n_n 1024 rfl rfl).symm k) = (ix2 (i 0) k : S200x1024.Idx) := funext fun a => Fin.ext (by
    match a with
    | ⟨0, _⟩ => exact lhs_hid_0 _ _
    | ⟨1, _⟩ => exact (lhs_hid_1 _ _).trans hk)
  have er : dot_S200x1024_S1024x1024_S200x1024_1_0_0_1_n_n.rhsIdx i ((ValueIdx.contrEquiv1 dot_S200x1024_S1024x1024_S200x1024_1_0_0_1_n_n 1024 rfl rfl).symm k) = (ix2 k (i 1) : S1024x1024.Idx) := funext fun a => Fin.ext (by
    match a with
    | ⟨0, _⟩ => exact (rhs_hid_0 _ _).trans hk
    | ⟨1, _⟩ => exact rhs_hid_1 _ _)
  exact congrArg₂ (· * ·) (congrArg lhs el) (congrArg rhs er)

/-! ### The contraction `S200x1024 · S1024x128`: the operand coordinates at an output coordinate and a contraction index -/

/-- The left operand's row is the output's row. -/
theorem lhs_head_0 (i : S200x128.Idx) (q : dot_S200x1024_S1024x128_S200x128_1_0_0_1_n_n.contr.Idx) :
    (dot_S200x1024_S1024x128_S200x128_1_0_0_1_n_n.lhsIdx i q 0).val = (i 0).val := by
  unfold DotDims.lhsIdx
  rw [dif_neg (show ¬(0 : Fin S200x1024.rank) ∈ dot_S200x1024_S1024x128_S200x128_1_0_0_1_n_n.lhsBatch by decide), dif_pos (show (0 : Fin S200x1024.rank) ∈ dot_S200x1024_S1024x128_S200x128_1_0_0_1_n_n.lhsNonContracting by decide)]
  rfl
/-- The left operand's column is the contraction index. -/
theorem lhs_head_1 (i : S200x128.Idx) (q : dot_S200x1024_S1024x128_S200x128_1_0_0_1_n_n.contr.Idx) :
    (dot_S200x1024_S1024x128_S200x128_1_0_0_1_n_n.lhsIdx i q 1).val = (q ⟨0, by decide⟩).val :=
  dot_S200x1024_S1024x128_S200x128_1_0_0_1_n_n.lhsIdx_val_of_single rfl i q
/-- The right operand's row is the contraction index. -/
theorem rhs_head_0 (i : S200x128.Idx) (q : dot_S200x1024_S1024x128_S200x128_1_0_0_1_n_n.contr.Idx) :
    (dot_S200x1024_S1024x128_S200x128_1_0_0_1_n_n.rhsIdx i q 0).val = (q ⟨0, by decide⟩).val :=
  dot_S200x1024_S1024x128_S200x128_1_0_0_1_n_n.rhsIdx_val_of_single rfl i q
/-- The right operand's column is the output's column. -/
theorem rhs_head_1 (i : S200x128.Idx) (q : dot_S200x1024_S1024x128_S200x128_1_0_0_1_n_n.contr.Idx) :
    (dot_S200x1024_S1024x128_S200x128_1_0_0_1_n_n.rhsIdx i q 1).val = (i 1).val := by
  unfold DotDims.rhsIdx
  rw [dif_neg (show ¬(1 : Fin S1024x128.rank) ∈ dot_S200x1024_S1024x128_S200x128_1_0_0_1_n_n.rhsBatch by decide), dif_pos (show (1 : Fin S1024x128.rank) ∈ dot_S200x1024_S1024x128_S200x128_1_0_0_1_n_n.rhsNonContracting by decide)]
  rfl

/-- Into the zero block, the product read at (r, c) is `∑ₖ lhs[r,k] · rhs[k,c]`. -/
theorem matmul_head_apply (lhs : FVec Ideal S200x1024 .f32) (rhs : FVec Ideal S1024x128 .f32) (i : S200x128.Idx) :
    matmul dot_S200x1024_S1024x128_S200x128_1_0_0_1_n_n none lhs rhs (constant (F := Ideal) S200x128 .f32 0x00000000#32) i
      = ∑ k : Fin 1024, lhs (ix2 (i 0) k) * rhs (ix2 k (i 1)) := by
  simp only [matmul]
  rw [Ideal.matmul_constant_zero_apply, ← Equiv.sum_comp (ValueIdx.contrEquiv1 dot_S200x1024_S1024x128_S200x128_1_0_0_1_n_n 1024 rfl rfl).symm]
  refine Finset.sum_congr rfl fun k _ => ?_
  have hk := ValueIdx.contrEquiv1_symm_val dot_S200x1024_S1024x128_S200x128_1_0_0_1_n_n 1024 rfl rfl k
  have el : dot_S200x1024_S1024x128_S200x128_1_0_0_1_n_n.lhsIdx i ((ValueIdx.contrEquiv1 dot_S200x1024_S1024x128_S200x128_1_0_0_1_n_n 1024 rfl rfl).symm k) = (ix2 (i 0) k : S200x1024.Idx) := funext fun a => Fin.ext (by
    match a with
    | ⟨0, _⟩ => exact lhs_head_0 _ _
    | ⟨1, _⟩ => exact (lhs_head_1 _ _).trans hk)
  have er : dot_S200x1024_S1024x128_S200x128_1_0_0_1_n_n.rhsIdx i ((ValueIdx.contrEquiv1 dot_S200x1024_S1024x128_S200x128_1_0_0_1_n_n 1024 rfl rfl).symm k) = (ix2 k (i 1) : S1024x128.Idx) := funext fun a => Fin.ext (by
    match a with
    | ⟨0, _⟩ => exact (rhs_head_0 _ _).trans hk
    | ⟨1, _⟩ => exact rhs_head_1 _ _)
  exact congrArg₂ (· * ·) (congrArg lhs el) (congrArg rhs er)

/-- The reset block is zero everywhere. -/
theorem pay1_apply (y : S200x1024.Idx) : k0_pay1 (F := Ideal) y = 0 := by
  unfold k0_pay1
  rw [shapeCast_self]
  exact Ideal.ofBits_zero_f32

/-- The accumulation at (r, l): the accumulator there plus this stretch's contraction. -/
theorem pay2_apply (v3 : Vec Ideal S200x1024 .f32) (v4 : Vec Ideal S200x3584 .f32) (v5 : Vec Ideal S3584x1024 .f32)
    (r : Fin 200) (l : Fin 1024) :
    k0_pay2 (F := Ideal) v3 v4 v5 (ix2 r l) = v3 (ix2 r l) + ∑ j : Fin 3584, v4 (ix2 r j) * v5 (ix2 j l) := by
  unfold k0_pay2
  rw [shapeCast_self]
  refine (addf_apply _ _ _).trans ?_
  exact congrArg (v3 (ix2 r l) + ·) (matmul_acc_apply v4 v5 (ix2 r l))

/-! ### The last step's layers at a coordinate -/

/-- A one-row block spread down the 200 rows reads, at (r, l), the row's entry in column l. -/
theorem rows1024_apply (x : FVec Ideal S1x1024 .f32) (h : S1x1024.Broadcasts S200x1024) (r : Fin 200) (l : Fin 1024) :
    broadcastTo S200x1024 x h (ix2 r l) = x (ix2 (0 : Fin 1) l) :=
  broadcastTo_apply x h (ix2 r l) (ix2 (0 : Fin 1) l) (fun a => match a with
    | ⟨0, _⟩ => by show 0 = if (1 : Nat) = 1 then 0 else _; rw [if_pos rfl]
    | ⟨1, _⟩ => by show l.val = if (1024 : Nat) = 1 then 0 else l.val; rw [if_neg (by decide)])

/-- The same for a row of 128 entries. -/
theorem rows128_apply (x : FVec Ideal S1x128 .f32) (h : S1x128.Broadcasts S200x128) (r : Fin 200) (q : Fin 128) :
    broadcastTo S200x128 x h (ix2 r q) = x (ix2 (0 : Fin 1) q) :=
  broadcastTo_apply x h (ix2 r q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The first rectified layer at (r, l): `max (a[r,l] + b₁[l]) 0`. -/
theorem layer1_apply (a : FVec Ideal S200x1024 .f32) (b1 : FVec Ideal S1x1024 .f32) (h : S1x1024.Broadcasts S200x1024)
    (r : Fin 200) (l : Fin 1024) :
    maximumf (addf a (broadcastTo S200x1024 b1 h)) (broadcast S200x1024 (Scalar.ofBits (F := Ideal) .f32 0x00000000#32)) (ix2 r l)
      = BoxHead.relu1 (fun l => a (ix2 r l)) (fun l => b1 (ix2 (0 : Fin 1) l)) l := by
  rw [maximumf_apply, addf_apply, rows1024_apply, broadcast_apply]
  show max _ (Ideal.ofBits .f32 0x00000000#32) = _
  rw [Ideal.ofBits_zero_f32]
  rfl

/-- The second rectified layer at (r, l): `max (∑ⱼ h[r,j]·W₂[j,l] + b₂[l]) 0`. -/
theorem layer2_apply (h1 : FVec Ideal S200x1024 .f32) (w2 : FVec Ideal S1024x1024 .f32) (b2 : FVec Ideal S1x1024 .f32)
    (h : S1x1024.Broadcasts S200x1024) (r : Fin 200) (l : Fin 1024) :
    maximumf (addf (matmul dot_S200x1024_S1024x1024_S200x1024_1_0_0_1_n_n none h1 w2 (constant (F := Ideal) S200x1024 .f32 0x00000000#32)) (broadcastTo S200x1024 b2 h))
        (broadcast S200x1024 (Scalar.ofBits (F := Ideal) .f32 0x00000000#32)) (ix2 r l)
      = BoxHead.hid2 (fun j => h1 (ix2 r j)) (fun j l => w2 (ix2 j l)) (fun l => b2 (ix2 (0 : Fin 1) l)) l := by
  rw [maximumf_apply, addf_apply, rows1024_apply, broadcast_apply, matmul_hid_apply]
  show max _ (Ideal.ofBits .f32 0x00000000#32) = _
  rw [Ideal.ofBits_zero_f32]
  rfl

/-- The linear head at (r, q): `∑ⱼ h[r,j]·W[j,q] + b[q]`. -/
theorem head_apply (h2 : FVec Ideal S200x1024 .f32) (w : FVec Ideal S1024x128 .f32) (b : FVec Ideal S1x128 .f32)
    (h : S1x128.Broadcasts S200x128) (r : Fin 200) (q : Fin 128) :
    addf (matmul dot_S200x1024_S1024x128_S200x128_1_0_0_1_n_n none h2 w (constant (F := Ideal) S200x128 .f32 0x00000000#32)) (broadcastTo S200x128 b h) (ix2 r q)
      = BoxHead.head (fun j => h2 (ix2 r j)) (fun j q' => w (ix2 j q')) (fun q' => b (ix2 (0 : Fin 1) q')) q := by
  rw [addf_apply, rows128_apply, matmul_head_apply]
  rfl

/-- The final store at (r, q): both rectified layers and the 128-wide head, from the finished accumulator `v14`. -/
theorem pay3_apply (v14 : Vec Ideal S200x1024 .f32) (v15 : Vec Ideal S1x1024 .f32) (v21 : Vec Ideal S1024x1024 .f32)
    (v23 : Vec Ideal S1x1024 .f32) (v29 : Vec Ideal S1024x128 .f32) (v32 : Vec Ideal S1x128 .f32)
    (r : Fin 200) (q : Fin 128) :
    k0_pay3 (F := Ideal) v14 v15 v21 v23 v29 v32 (ix2 r q)
      = BoxHead.head
          (BoxHead.hid2 (BoxHead.relu1 (fun l => v14 (ix2 r l)) (fun l => v15 (ix2 (0 : Fin 1) l)))
            (fun j l => v21 (ix2 j l)) (fun l => v23 (ix2 (0 : Fin 1) l)))
          (fun j q' => v29 (ix2 j q')) (fun q' => v32 (ix2 (0 : Fin 1) q')) q := by
  unfold k0_pay3
  simp only [shapeCast_self]
  refine (head_apply _ _ _ _ r q).trans ?_
  refine congrArg (fun h => BoxHead.head h (fun j q' => v29 (ix2 j q')) (fun q' => v32 (ix2 (0 : Fin 1) q')) q) (funext fun j => ?_)
  refine (layer2_apply _ _ _ _ r j).trans ?_
  exact congrArg (fun h => BoxHead.hid2 h (fun j l => v21 (ix2 j l)) (fun l => v23 (ix2 (0 : Fin 1) l)) j)
    (funext fun j' => layer1_apply _ _ _ r j')

end Cert.KernelIdeal.KPay

end
-- ==== Proof.KAcc.lean ====
/-
  The accumulator across the grid, over the extended reals.

  Fix a row `R` of the first argument and a column `l` of the second. Its contraction over the 50176 indices is cut
  into 14 stretches of 3584. Along one row block's 14 grid points the kernel's accumulator at (r, l) holds, after the
  point of stretch `k`, the sum of stretches 0 … k of row `R = 200·(block) + r`: the first point clears it and adds
  stretch 0, each later point adds its own stretch to what the point before left. By induction on the point.
-/
import proofs.«144970_g2138893714091_cont_8to1_871_2_alg».proof.Proof.KPieces
import proofs.«144970_g2138893714091_cont_8to1_871_2_alg».proof.Proof.KBlocks
import proofs.«144970_g2138893714091_cont_8to1_871_2_alg».proof.Proof.KPay
import proofs.«144970_g2138893714091_cont_8to1_871_2_alg».proof.Proof.Spec

set_option maxRecDepth 16384

noncomputable section

namespace Cert.KernelIdeal.KAcc

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The two large arguments as the region finds them, the two blocks a point reads of them, and the accumulator after a
    point, each named at its literal coordinate type so that their entries add and multiply as extended reals. -/
abbrev Xa (c : Dev nD) : S1000x50176.Idx → EReal := V m c main_arg0
abbrev W1a (c : Dev nD) : S50176x1024.Idx → EReal := V m c main_arg1
abbrev xblk (c : Dev nD) (t : Fin cfg0.N) : S200x3584.Idx → EReal := iblk m c 0 t
abbrev wblk (c : Dev nD) (t : Fin cfg0.N) : S3584x1024.Idx → EReal := iblk m c 1 t
abbrev accAt (c : Dev nD) (n : ℕ) (h : n < cfg0.N) : S200x1024.Idx → EReal := (outsAt0 m c n h).2

/-- Row `R` of the first argument against column `l` of the second, over stretch `k` of the contraction. -/
def stretch (c : Dev nD) (R : Fin 1000) (l : Fin 1024) (k : Fin 14) : EReal :=
  ∑ j : Fin 3584, Xa m c (ix2 R (BoxHead.kidx k j)) * W1a m c (ix2 (BoxHead.kidx k j) l)

/-- The partial product a point adds at (r, l) is its stretch of its row. -/
theorem partial_apply (c : Dev nD) (t : Fin cfg0.N) (r : Fin 200) (l : Fin 1024) (R : Fin 1000) (k : Fin 14)
    (hR : R.val = 200 * (t.val / 14) + r.val) (hk : k.val = t.val % 14) :
    ∑ j : Fin 3584, xblk m c t (ix2 r j) * wblk m c t (ix2 j l) = stretch m c R l k := by
  unfold stretch
  refine Finset.sum_congr rfl fun j _ => ?_
  exact congrArg₂ (· * ·)
    (KBlocks.iblk0_apply m c t r j R (BoxHead.kidx k j) hR (by rw [BoxHead.kidx_val, hk]))
    (KBlocks.iblk1_apply m c t j l (BoxHead.kidx k j) (by rw [BoxHead.kidx_val, hk]))

/-- At the first point of a row block the accumulator is that point's stretch alone. -/
theorem acc_A (c : Dev nD) (t : Fin cfg0.N) (h0 : t.val % 14 = 0) (h1 : ¬t.val % 14 = 13) (r : Fin 200) (l : Fin 1024)
    (R : Fin 1000) (k : Fin 14) (hR : R.val = 200 * (t.val / 14) + r.val) (hk : k.val = t.val % 14) :
    accAt m c t.val t.isLt (ix2 r l) = stretch m c R l k := by
  show (outsAt0 m c t.val t.isLt).2 (ix2 r l) = _
  rw [outsAt0_A m c t h0 h1]
  dsimp only
  refine (congrFun (KPieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 r l)).trans ?_
  refine (KPay.pay2_apply (k0_pay1 (F := Ideal)) (iblk m c 0 t) (iblk m c 1 t) r l).trans ?_
  rw [KPay.pay1_apply, zero_add]
  exact partial_apply m c t r l R k hR hk

/-- At a middle point it is what the point before left plus this point's stretch. -/
theorem acc_B (c : Dev nD) (t : Fin cfg0.N) (h0 : ¬t.val % 14 = 0) (h1 : ¬t.val % 14 = 13) (r : Fin 200) (l : Fin 1024)
    (R : Fin 1000) (k : Fin 14) (hR : R.val = 200 * (t.val / 14) + r.val) (hk : k.val = t.val % 14) :
    accAt m c t.val t.isLt (ix2 r l)
      = accAt m c (t.val - 1) (Nat.lt_of_le_of_lt (Nat.sub_le _ _) t.isLt) (ix2 r l) + stretch m c R l k := by
  show (outsAt0 m c t.val t.isLt).2 (ix2 r l) = _
  rw [outsAt0_B m c t h0 h1]
  dsimp only
  refine (congrFun (KPieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 r l)).trans ?_
  refine (KPay.pay2_apply (outsAt0 m c (t.val - 1) (Nat.lt_of_le_of_lt (Nat.sub_le _ _) t.isLt)).2 (iblk m c 0 t) (iblk m c 1 t) r l).trans ?_
  exact congrArg (accAt m c (t.val - 1) (Nat.lt_of_le_of_lt (Nat.sub_le _ _) t.isLt) (ix2 r l) + ·) (partial_apply m c t r l R k hR hk)

/-- At the last point of a row block likewise. -/
theorem acc_C (c : Dev nD) (t : Fin cfg0.N) (h0 : ¬t.val % 14 = 0) (h1 : t.val % 14 = 13) (r : Fin 200) (l : Fin 1024)
    (R : Fin 1000) (k : Fin 14) (hR : R.val = 200 * (t.val / 14) + r.val) (hk : k.val = t.val % 14) :
    accAt m c t.val t.isLt (ix2 r l)
      = accAt m c (t.val - 1) (Nat.lt_of_le_of_lt (Nat.sub_le _ _) t.isLt) (ix2 r l) + stretch m c R l k := by
  show (outsAt0 m c t.val t.isLt).2 (ix2 r l) = _
  rw [outsAt0_C m c t h0 h1]
  dsimp only
  refine (congrFun (KPieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 r l)).trans ?_
  refine (KPay.pay2_apply (outsAt0 m c (t.val - 1) (Nat.lt_of_le_of_lt (Nat.sub_le _ _) t.isLt)).2 (iblk m c 0 t) (iblk m c 1 t) r l).trans ?_
  exact congrArg (accAt m c (t.val - 1) (Nat.lt_of_le_of_lt (Nat.sub_le _ _) t.isLt) (ix2 r l) + ·) (partial_apply m c t r l R k hR hk)

/-- THE RUNNING SUM: after point `n` the accumulator at (r, l) is the sum of stretches 0 … n % 14 of row `200·(n/14) + r`. -/
theorem acc_eq (c : Dev nD) : ∀ (n : ℕ) (h : n < cfg0.N) (r : Fin 200) (l : Fin 1024) (R : Fin 1000),
    R.val = 200 * (n / 14) + r.val →
    accAt m c n h (ix2 r l) = BoxHead.upto (stretch m c R l) (n % 14)
  | 0, h, r, l, R, hR => by
    rw [show (0 : ℕ) % 14 = 0 from rfl, BoxHead.upto_zero]
    exact acc_A m c ⟨0, h⟩ rfl (by show ¬(0 : ℕ) % 14 = 13; decide) r l R 0 hR rfl
  | n + 1, h, r, l, R, hR => by
    have hN : n + 1 < 70 := lt_of_lt_of_eq h (show cfg0.N = 70 from N_0)
    by_cases h0 : (n + 1) % 14 = 0
    · rw [h0, BoxHead.upto_zero]
      exact acc_A m c ⟨n + 1, h⟩ h0 (by show ¬(n + 1) % 14 = 13; omega) r l R 0 hR (by show (0 : ℕ) = (n + 1) % 14; omega)
    · have hk : (n + 1) % 14 = n % 14 + 1 := by omega
      have hlt : n % 14 + 1 < 14 := by omega
      have hR' : R.val = 200 * (n / 14) + r.val := by rw [hR]; congr 2; omega
      have ih := acc_eq c n (Nat.lt_of_succ_lt h) r l R hR'
      rw [hk, BoxHead.upto_succ _ _ hlt, ← ih]
      by_cases h1 : (n + 1) % 14 = 13
      · exact acc_C m c ⟨n + 1, h⟩ h0 h1 r l R ⟨n % 14 + 1, hlt⟩ hR hk.symm
      · exact acc_B m c ⟨n + 1, h⟩ h0 h1 r l R ⟨n % 14 + 1, hlt⟩ hR hk.symm

/-- After the last point of a row block the accumulator at (r, l) is the whole contraction of row `R` with column `l`. -/
theorem acc_last (c : Dev nD) (t : Fin cfg0.N) (h1 : t.val % 14 = 13) (r : Fin 200) (l : Fin 1024) (R : Fin 1000)
    (hR : R.val = 200 * (t.val / 14) + r.val) :
    accAt m c t.val t.isLt (ix2 r l) = ∑ jj : Fin 50176, Xa m c (ix2 R jj) * W1a m c (ix2 jj l) := by
  rw [acc_eq m c t.val t.isLt r l R hR, h1, BoxHead.upto_last]
  exact BoxHead.sum_stretches (fun jj => Xa m c (ix2 R jj) * W1a m c (ix2 jj l))

/-- And the output block stored at that point is the final computation on that accumulator. -/
theorem out_last (c : Dev nD) (t : Fin cfg0.N) (h0 : ¬t.val % 14 = 0) (h1 : t.val % 14 = 13) :
    (outsAt0 m c t.val t.isLt).1
      = k0_pay3 ((outsAt0 m c t.val t.isLt).2) (iblk m c 2 t) (iblk m c 3 t) (iblk m c 4 t) (iblk m c 5 t) (iblk m c 6 t) := by
  rw [outsAt0_C m c t h0 h1]
  dsimp only
  rw [KPieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2]
  exact KPieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

end Cert.KernelIdeal.KAcc

end
-- ==== Proof.KHost.lean ====
/-
  The arrays the host prepares for the kernel and the slices it takes of the kernel's result, read at one coordinate.

  Before the launch the two biases are viewed as one-row matrices; the two heads' weights are laid side by side
  (columns 0–3 the first head's, 4–15 the second's) and padded on the right to 128 columns, and their biases
  likewise to 128 entries, viewed as one row. After the launch the first 4 and the next 12 columns of the
  1000×128 result are taken. Only columns below 16 are ever read back, so the padding's value plays no part.
-/
import proofs.«144970_g2138893714091_cont_8to1_871_2_alg».proof.Proof.Gen.KernelIdeal.Frame
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

noncomputable section

namespace Cert.KernelIdeal.KHost

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The operations over any entries -/

/-- The two heads' weights laid side by side and padded on the right, read at a column of the first head: on both axes the
    index lies inside the operand, and within it left of the seam. -/
theorem padCat2_lo {α : Type} (x₁ : S1024x4.Idx → α) (x₂ : S1024x12.Idx → α) (v : S_.Idx → α) (j : Fin 1024) (q : Fin 4) :
    pad S1024x128 ![0, 0] ![0, 112] ![0, 0]
        (concatenate S1024x16 1 [⟨S1024x4, x₁⟩, ⟨S1024x12, x₂⟩] concatenates_S1024x4_S1024x12_S1024x16_d1) v
        pads_S1024x16_S1024x128_000_01120 h_S_ (ix2 j (⟨q.val, by have := q.isLt; omega⟩ : Fin 128))
      = x₁ (ix2 j q) := by
  have hq := q.isLt
  rw [pad_apply_of_inside _ _ _ _ v pads_S1024x16_S1024x128_000_01120 h_S_ _ (ix2 j (⟨q.val, by omega⟩ : Fin 16)) (fun a => by
    match a with
    | ⟨0, _⟩ => show j.val = 0 + j.val * (0 + 1); omega
    | ⟨1, _⟩ => show q.val = 0 + q.val * (0 + 1); omega)]
  exact concatenate_pair_apply_left (t := S1024x16) (s₁ := S1024x4) (s₂ := S1024x12) 1 x₁ x₂
    concatenates_S1024x4_S1024x12_S1024x16_d1 _ rfl (ix2 j q) (fun b => by
    match b with
    | ⟨0, _⟩ => rfl
    | ⟨1, _⟩ => rfl)

/-- The same read at column 4 + q: inside the operand, and within it q columns right of the seam. -/
theorem padCat2_hi {α : Type} (x₁ : S1024x4.Idx → α) (x₂ : S1024x12.Idx → α) (v : S_.Idx → α) (j : Fin 1024) (q : Fin 12) :
    pad S1024x128 ![0, 0] ![0, 112] ![0, 0]
        (concatenate S1024x16 1 [⟨S1024x4, x₁⟩, ⟨S1024x12, x₂⟩] concatenates_S1024x4_S1024x12_S1024x16_d1) v
        pads_S1024x16_S1024x128_000_01120 h_S_ (ix2 j (⟨q.val + 4, by have := q.isLt; omega⟩ : Fin 128))
      = x₂ (ix2 j q) := by
  have hq := q.isLt
  rw [pad_apply_of_inside _ _ _ _ v pads_S1024x16_S1024x128_000_01120 h_S_ _ (ix2 j (⟨q.val + 4, by omega⟩ : Fin 16)) (fun a => by
    match a with
    | ⟨0, _⟩ => show j.val = 0 + j.val * (0 + 1); omega
    | ⟨1, _⟩ => show q.val + 4 = 0 + (q.val + 4) * (0 + 1); omega)]
  exact concatenate_pair_apply_right (t := S1024x16) (s₁ := S1024x4) (s₂ := S1024x12) 1 x₁ x₂
    concatenates_S1024x4_S1024x12_S1024x16_d1 _ rfl rfl (ix2 j q) (fun b hb => by
    match b, hb with
    | ⟨0, _⟩, _ => rfl
    | ⟨1, _⟩, hb => exact absurd rfl hb) rfl

/-- The two heads' biases laid end to end, padded and viewed as one row, read at an entry of the first head. -/
theorem padCat1_lo {α : Type} (x₁ : S4.Idx → α) (x₂ : S12.Idx → α) (v : S_.Idx → α) (q : Fin 4) :
    shapeCast S1x128 (pad S128 ![0] ![112] ![0]
        (concatenate S16 0 [⟨S4, x₁⟩, ⟨S12, x₂⟩] concatenates_S4_S12_S16_d0) v
        pads_S16_S128_01120 h_S_) shapeCasts_S128_S1x128 (ix2 (0 : Fin 1) (⟨q.val, by have := q.isLt; omega⟩ : Fin 128))
      = x₁ (ix1 q) := by
  have hq := q.isLt
  rw [shapeCast_a_1a_apply]
  rw [pad_apply_of_inside _ _ _ _ v pads_S16_S128_01120 h_S_ _ (ix1 (⟨q.val, by omega⟩ : Fin 16)) (fun a => by
    match a with
    | ⟨0, _⟩ => show q.val = 0 + q.val * (0 + 1); omega)]
  exact concatenate_pair_apply_left (t := S16) (s₁ := S4) (s₂ := S12) 0 x₁ x₂ concatenates_S4_S12_S16_d0 _ rfl (ix1 q) (fun b => by
    match b with
    | ⟨0, _⟩ => rfl)

/-- The same read at entry 4 + q: q entries past the seam. -/
theorem padCat1_hi {α : Type} (x₁ : S4.Idx → α) (x₂ : S12.Idx → α) (v : S_.Idx → α) (q : Fin 12) :
    shapeCast S1x128 (pad S128 ![0] ![112] ![0]
        (concatenate S16 0 [⟨S4, x₁⟩, ⟨S12, x₂⟩] concatenates_S4_S12_S16_d0) v
        pads_S16_S128_01120 h_S_) shapeCasts_S128_S1x128 (ix2 (0 : Fin 1) (⟨q.val + 4, by have := q.isLt; omega⟩ : Fin 128))
      = x₂ (ix1 q) := by
  have hq := q.isLt
  rw [shapeCast_a_1a_apply]
  rw [pad_apply_of_inside _ _ _ _ v pads_S16_S128_01120 h_S_ _ (ix1 (⟨q.val + 4, by omega⟩ : Fin 16)) (fun a => by
    match a with
    | ⟨0, _⟩ => show q.val + 4 = 0 + (q.val + 4) * (0 + 1); omega)]
  exact concatenate_pair_apply_right (t := S16) (s₁ := S4) (s₂ := S12) 0 x₁ x₂ concatenates_S4_S12_S16_d0 _ rfl rfl (ix1 q) (fun b hb => by
    match b, hb with
    | ⟨0, _⟩, hb => exact absurd rfl hb) rfl

/-! ## The arrays the region finds, as the host operations' value on the arguments -/

/-- The padded head weights: the two heads' weights side by side, padded on the right with the converted zero. -/
theorem V_v1_eq (c : Dev nD) :
    (V m c main_v1 : S1024x128.Idx → F .f32)
      = pad S1024x128 ![0, 0] ![0, 112] ![0, 0]
          (concatenate S1024x16 1 [⟨S1024x4, (m ((c : Thread nD τ).loc main_arg5) : S1024x4.Idx → F .f32)⟩,
            ⟨S1024x12, (m ((c : Thread nD τ).loc main_arg7) : S1024x12.Idx → F .f32)⟩] concatenates_S1024x4_S1024x12_S1024x16_d1)
          (sitofp .f32 (constantI S_ 32 0#32)) pads_S1024x16_S1024x128_000_01120 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The padded head bias: the two heads' biases end to end, padded with the converted zero, as one row. -/
theorem V_v4_eq (c : Dev nD) :
    (V m c main_v4 : S1x128.Idx → F .f32)
      = shapeCast S1x128 (pad S128 ![0] ![112] ![0]
          (concatenate S16 0 [⟨S4, (m ((c : Thread nD τ).loc main_arg6) : S4.Idx → F .f32)⟩,
            ⟨S12, (m ((c : Thread nD τ).loc main_arg8) : S12.Idx → F .f32)⟩] concatenates_S4_S12_S16_d0)
          (sitofp .f32 (constantI S_ 32 0#32)) pads_S16_S128_01120 h_S_) shapeCasts_S128_S1x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The first bias as the region finds it: one row, entry `l` the argument's entry `l`. -/
theorem V_v5 (c : Dev nD) (l : Fin 1024) :
    (V m c main_v5 : S1x1024.Idx → F .f32) (ix2 (0 : Fin 1) l) = (m ((c : Thread nD τ).loc main_arg2) : S1024.Idx → F .f32) (ix1 l) := by
  have e : (V m c main_v5 : S1x1024.Idx → F .f32)
      = shapeCast S1x1024 (m ((c : Thread nD τ).loc main_arg2) : S1024.Idx → F .f32) shapeCasts_S1024_S1x1024 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  exact shapeCast_a_1a_apply _ _ _ _

/-- The second bias likewise. -/
theorem V_v6 (c : Dev nD) (l : Fin 1024) :
    (V m c main_v6 : S1x1024.Idx → F .f32) (ix2 (0 : Fin 1) l) = (m ((c : Thread nD τ).loc main_arg4) : S1024.Idx → F .f32) (ix1 l) := by
  have e : (V m c main_v6 : S1x1024.Idx → F .f32)
      = shapeCast S1x1024 (m ((c : Thread nD τ).loc main_arg4) : S1024.Idx → F .f32) shapeCasts_S1024_S1x1024 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  exact shapeCast_a_1a_apply _ _ _ _

/-- The padded head weights at a column below 4: the first head's weights. -/
theorem V_v1_lo (c : Dev nD) (j : Fin 1024) (q : Fin 4) :
    (V m c main_v1 : S1024x128.Idx → F .f32) (ix2 j (⟨q.val, by have := q.isLt; omega⟩ : Fin 128))
      = (m ((c : Thread nD τ).loc main_arg5) : S1024x4.Idx → F .f32) (ix2 j q) := by
  rw [V_v1_eq m c]
  exact padCat2_lo _ _ _ j q

/-- The padded head weights at column 4 + q, q below 12: the second head's weights. -/
theorem V_v1_hi (c : Dev nD) (j : Fin 1024) (q : Fin 12) :
    (V m c main_v1 : S1024x128.Idx → F .f32) (ix2 j (⟨q.val + 4, by have := q.isLt; omega⟩ : Fin 128))
      = (m ((c : Thread nD τ).loc main_arg7) : S1024x12.Idx → F .f32) (ix2 j q) := by
  rw [V_v1_eq m c]
  exact padCat2_hi _ _ _ j q

/-- The padded head bias at an entry below 4: the first head's bias. -/
theorem V_v4_lo (c : Dev nD) (q : Fin 4) :
    (V m c main_v4 : S1x128.Idx → F .f32) (ix2 (0 : Fin 1) (⟨q.val, by have := q.isLt; omega⟩ : Fin 128))
      = (m ((c : Thread nD τ).loc main_arg6) : S4.Idx → F .f32) (ix1 q) := by
  rw [V_v4_eq m c]
  exact padCat1_lo _ _ _ q

/-- The padded head bias at entry 4 + q, q below 12: the second head's bias. -/
theorem V_v4_hi (c : Dev nD) (q : Fin 12) :
    (V m c main_v4 : S1x128.Idx → F .f32) (ix2 (0 : Fin 1) (⟨q.val + 4, by have := q.isLt; omega⟩ : Fin 128))
      = (m ((c : Thread nD τ).loc main_arg8) : S12.Idx → F .f32) (ix1 q) := by
  rw [V_v4_eq m c]
  exact padCat1_hi _ _ _ q

/-- The first slice of the result at (r, q) reads column q. -/
theorem slice_lo {α : Type} (x : S1000x128.Idx → α) (r : Fin 1000) (q : Fin 4) :
    extractStridedSlice S1000x4 ![0, 0] x slices_S1000x128_S1000x4_0_0 (ix2 r q)
      = x (ix2 r (⟨q.val, by have := q.isLt; omega⟩ : Fin 128)) :=
  slice2_axis1_apply 0 x slices_S1000x128_S1000x4_0_0 r q _ (by show q.val = 0 + q.val; omega)

/-- The second slice of the result at (r, q) reads column 4 + q. -/
theorem slice_hi {α : Type} (x : S1000x128.Idx → α) (r : Fin 1000) (q : Fin 12) :
    extractStridedSlice S1000x12 ![0, 4] x slices_S1000x128_S1000x12_0_4 (ix2 r q)
      = x (ix2 r (⟨q.val + 4, by have := q.isLt; omega⟩ : Fin 128)) :=
  slice2_axis1_apply 4 x slices_S1000x128_S1000x12_0_4 r q _ (by show q.val + 4 = 4 + q.val; omega)

end Cert.KernelIdeal.KHost

end
-- ==== Proof.KFinal.lean ====
/-
  The array the kernel region leaves, and the two results the host slices from it.

  Entry (R, q) of the 1000×128 array is the 128-wide padded head `q` of the two hidden layers of row `R` of the first
  argument: the block of rows 200·b … 200·b + 199 is written back once, after the last contraction stretch of row
  block `b`, from the finished accumulator. Those five write-backs cover the array. The host then keeps columns 0–3
  and 4–15, where the padded head is the first and the second head.
-/
import proofs.«144970_g2138893714091_cont_8to1_871_2_alg».proof.Proof.KAcc
import proofs.«144970_g2138893714091_cont_8to1_871_2_alg».proof.Proof.KHost
import proofs.«144970_g2138893714091_cont_8to1_871_2_alg».proof.Proof.SpecArr

set_option maxRecDepth 16384

noncomputable section

namespace Cert.KernelIdeal.KFinal

open Cert.KernelIdeal Cert.KernelIdeal.Gen Cert.KernelIdeal.KAcc Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The five small operands as the region finds them, at their literal coordinate types. -/
abbrev b1a (c : Dev nD) : S1x1024.Idx → EReal := V m c main_v5
abbrev W2a (c : Dev nD) : S1024x1024.Idx → EReal := V m c main_arg3
abbrev b2a (c : Dev nD) : S1x1024.Idx → EReal := V m c main_v6
abbrev Wha (c : Dev nD) : S1024x128.Idx → EReal := V m c main_v1
abbrev bha (c : Dev nD) : S1x128.Idx → EReal := V m c main_v4

/-- The second hidden layer of row `R`, from the arrays as the region finds them. -/
def hiddenK (c : Dev nD) (R : Fin 1000) : Fin 1024 → EReal :=
  BoxHead.hid2 (BoxHead.hid1 (fun jj => Xa m c (ix2 R jj)) (fun jj l => W1a m c (ix2 jj l)) (fun l => b1a m c (ix2 (0 : Fin 1) l)))
    (fun j l => W2a m c (ix2 j l)) (fun l => b2a m c (ix2 (0 : Fin 1) l))

/-- Entry (R, q) of the region's result. -/
def rowOut (c : Dev nD) (R : Fin 1000) (q : Fin 128) : EReal :=
  BoxHead.head (hiddenK m c R) (fun j q' => Wha m c (ix2 j q')) (fun q' => bha m c (ix2 (0 : Fin 1) q')) q

/-- The region's result array. -/
def G7 (c : Dev nD) : S1000x128.Idx → EReal := fun y => rowOut m c (y 0) (y 1)

/-- The output block stored at the last point of a row block, entry (r, q): row `200·(t/14) + r` of the result. -/
theorem outblk_apply (c : Dev nD) (t : Fin cfg0.N) (h1 : t.val % 14 = 13) (r : Fin 200) (q : Fin 128) (R : Fin 1000)
    (hR : R.val = 200 * (t.val / 14) + r.val) :
    ((outsAt0 m c t.val t.isLt).1 : S200x128.Idx → EReal) (ix2 r q) = rowOut m c R q := by
  have h0 : ¬t.val % 14 = 0 := by omega
  rw [KAcc.out_last m c t h0 h1]
  refine (KPay.pay3_apply ((outsAt0 m c t.val t.isLt).2) (iblk m c 2 t) (iblk m c 3 t) (iblk m c 4 t) (iblk m c 5 t) (iblk m c 6 t) r q).trans ?_
  unfold rowOut hiddenK
  rw [BoxHead.hid1_eq_relu1]
  have e1 : (fun l => ((outsAt0 m c t.val t.isLt).2 : S200x1024.Idx → EReal) (ix2 r l))
      = fun l => ∑ jj : Fin 50176, Xa m c (ix2 R jj) * W1a m c (ix2 jj l) :=
    funext fun l => KAcc.acc_last m c t h1 r l R hR
  rw [e1, KBlocks.iblk2_eq m c t, KBlocks.iblk3_eq m c t, KBlocks.iblk4_eq m c t, KBlocks.iblk5_eq m c t, KBlocks.iblk6_eq m c t]

/-- The same over any coordinate of the block and the array coordinate it lands on. -/
theorem outblk_read (c : Dev nD) (t : Fin cfg0.N) (h1 : t.val % 14 = 13) (y : S200x128.Idx) (Y : S1000x128.Idx)
    (hY0 : (Y 0).val = 200 * (t.val / 14) + (y 0).val) (hY1 : (Y 1).val = (y 1).val) :
    ((outsAt0 m c t.val t.isLt).1 : S200x128.Idx → EReal) y = G7 m c Y := by
  rw [eq_ix2 y]
  show _ = rowOut m c (Y 0) (Y 1)
  rw [show (Y 1) = (y 1) from Fin.ext hY1]
  exact outblk_apply m c t h1 (y 0) (y 1) (Y 0) hY0

/-- WHAT A WRITING POINT WRITES BACK is its block of the result array. -/
theorem flushed_eq (c : Dev nD) (t : Fin cfg0.N) (hf : (cfg0.win 7).flush t = true) :
    (dats m 0 c).flushed 7 t = ((cfg0.win 7).blk t).view.read (Elt Ideal) (G7 m c) := by
  have h1 : t.val % 14 = 13 := (flush0_7 t).mp hf
  show (cfg0.win 7).cut (grid0.coords t) ((dats m 0 c).after 7 t) = _
  rw [after0_7]
  funext y
  exact outblk_read m c t h1 y (((cfg0.win 7).blk t).view.emb y)
    (by show win0_7.index t 0 * 200 + 1 * (y 0).val = 200 * (t.val / 14) + (y 0).val; rw [(KBlocks.idx7 t).1]; omega)
    (by show win0_7.index t 1 * 128 + 1 * (y 1).val = (y 1).val; rw [(KBlocks.idx7 t).2]; omega)

/-- An index of the array is in point `t`'s block iff each coordinate is in the block's range on its axis. -/
theorem mem_blk7 (t : Fin cfg0.N) (i : S1000x128.Idx) :
    i ∈ ((cfg0.win 7).blk t).view.set ↔ ∀ a : Fin 2, win0_7.index t a * S200x128.size a ≤ (i a).val ∧ (i a).val < win0_7.index t a * S200x128.size a + S200x128.size a := by
  show i ∈ ((View.whole main_v7).slice (win0_7.rect t)).set ↔ _
  rw [View.set_slice_whole, Rect.mem_set_unit]
  exact Iff.rfl

/-- Row `R` is written back by the last point of row block `R / 200`. -/
theorem cover7 (i : S1000x128.Idx) : ∃ t : Fin cfg0.N, (cfg0.win 7).flush t = true ∧ i ∈ ((cfg0.win 7).blk t).view.set := by
  have hi0 : (i 0).val < 1000 := (i 0).isLt
  have hi1 : (i 1).val < 128 := (i 1).isLt
  have hN : cfg0.N = 70 := N_0
  refine ⟨⟨14 * ((i 0).val / 200) + 13, by omega⟩, (flush0_7 _).mpr (by show (14 * ((i 0).val / 200) + 13) % 14 = 13; omega), ?_⟩
  rw [mem_blk7]
  intro a
  match a with
  | ⟨0, _⟩ =>
    show win0_7.index _ 0 * 200 ≤ (i 0).val ∧ (i 0).val < win0_7.index _ 0 * 200 + 200
    rw [(KBlocks.idx7 _).1]
    show (14 * ((i 0).val / 200) + 13) / 14 * 200 ≤ (i 0).val ∧ (i 0).val < (14 * ((i 0).val / 200) + 13) / 14 * 200 + 200
    omega
  | ⟨1, _⟩ =>
    show win0_7.index _ 1 * 128 ≤ (i 1).val ∧ (i 1).val < win0_7.index _ 1 * 128 + 128
    rw [(KBlocks.idx7 _).2]
    omega

/-- THE ARRAY after the region. -/
theorem final7 (c : Dev nD) : (dats m 0 c).arrAt 7 cfg0.N = G7 m c :=
  (dats m 0 c).arrAt_eq_of_cover 7 (G7 m c) (flushed_eq m c) cover7

/-- The first result the host takes from it. -/
theorem tail_v8 (c : Dev nD) :
    Pipeline.afterTail₀ cfgs (dats m) 0 (V0 m) [hostOps1] c main_v8
      = extractStridedSlice S1000x4 ![0, 0] (G7 m c) slices_S1000x128_S1000x4_0_0 := by
  unfold Pipeline.afterTail₀
  show StableHlo.after hostOps1 _ (Proc.devRef .tc main_v8) = _
  after_results
  exact congrArg (fun x => extractStridedSlice S1000x4 ![0, 0] x slices_S1000x128_S1000x4_0_0)
    ((Pipeline.withArrays_arr spec0 launch0.win.arr_inj c (V0 m c) (fun w => (dats m 0 c).arrAt w cfg0.N) 7).trans (final7 m c))

/-- The second. -/
theorem tail_v9 (c : Dev nD) :
    Pipeline.afterTail₀ cfgs (dats m) 0 (V0 m) [hostOps1] c main_v9
      = extractStridedSlice S1000x12 ![0, 4] (G7 m c) slices_S1000x128_S1000x12_0_4 := by
  unfold Pipeline.afterTail₀
  show StableHlo.after hostOps1 _ (Proc.devRef .tc main_v9) = _
  after_results
  exact congrArg (fun x => extractStridedSlice S1000x12 ![0, 4] x slices_S1000x128_S1000x12_0_4)
    ((Pipeline.withArrays_arr spec0 launch0.win.arr_inj c (V0 m c) (fun w => (dats m 0 c).arrAt w cfg0.N) 7).trans (final7 m c))

/-- Two heads on the same hidden row agree at two columns where their weights and biases agree. -/
theorem head_congr {n n' : ℕ} (h : Fin 1024 → EReal) (W : Fin 1024 → Fin n → EReal) (b : Fin n → EReal)
    (W' : Fin 1024 → Fin n' → EReal) (b' : Fin n' → EReal) (q : Fin n) (q' : Fin n')
    (hW : ∀ j, W j q = W' j q') (hb : b q = b' q') : BoxHead.head h W b q = BoxHead.head h W' b' q' := by
  unfold BoxHead.head
  rw [hb]
  exact congrArg (· + b' q') (Finset.sum_congr rfl fun j _ => by rw [hW j])

/-- The hidden layer from the arrays as the region finds them is the hidden layer of the arguments: the two large
    arguments and the second layer's weights are found as launched, each bias as its one-row view. -/
theorem hiddenK_eq (c : Dev nD) (R : Fin 1000) :
    hiddenK m c R = BoxHead.hidden (m ((c : Thread nD τ).loc main_arg0)) (m ((c : Thread nD τ).loc main_arg1)) (m ((c : Thread nD τ).loc main_arg2)) (m ((c : Thread nD τ).loc main_arg3)) (m ((c : Thread nD τ).loc main_arg4)) R := by
  have eb1 : (fun l : Fin 1024 => (V m c main_v5 : S1x1024.Idx → EReal) (ix2 (0 : Fin 1) l))
      = fun l => ((m ((c : Thread nD τ).loc main_arg2)) : S1024.Idx → EReal) (ix1 l) := funext fun l => KHost.V_v5 m c l
  have eb2 : (fun l : Fin 1024 => (V m c main_v6 : S1x1024.Idx → EReal) (ix2 (0 : Fin 1) l))
      = fun l => ((m ((c : Thread nD τ).loc main_arg4)) : S1024.Idx → EReal) (ix1 l) := funext fun l => KHost.V_v6 m c l
  show BoxHead.hid2 (BoxHead.hid1 (fun jj => (V m c main_arg0 : S1000x50176.Idx → EReal) (ix2 R jj))
      (fun jj l => (V m c main_arg1 : S50176x1024.Idx → EReal) (ix2 jj l))
      (fun l => (V m c main_v5 : S1x1024.Idx → EReal) (ix2 (0 : Fin 1) l)))
      (fun j l => (V m c main_arg3 : S1024x1024.Idx → EReal) (ix2 j l))
      (fun l => (V m c main_v6 : S1x1024.Idx → EReal) (ix2 (0 : Fin 1) l)) = _
  rw [eb1, eb2, V_main_arg0 m c, V_main_arg1 m c, V_main_arg3 m c]
  rfl

/-- Columns 0–3 of the region's result are the first head of the arguments. -/
theorem res8_eq (c : Dev nD) :
    extractStridedSlice S1000x4 ![0, 0] (G7 m c) slices_S1000x128_S1000x4_0_0
      = BoxHead.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨r, q, rfl⟩ : ∃ (r : Fin 1000) (q : Fin 4), y = ix2 r q := ⟨y 0, y 1, eq_ix2 y⟩
  rw [KHost.slice_lo, BoxHead.outArr_apply]
  show rowOut m c r _ = _
  unfold rowOut
  rw [hiddenK_eq]
  exact head_congr _ _ _ _ _ _ _ (fun j => KHost.V_v1_lo m c j q) (KHost.V_v4_lo m c q)

/-- Columns 4–15 are the second head. -/
theorem res9_eq (c : Dev nD) :
    extractStridedSlice S1000x12 ![0, 4] (G7 m c) slices_S1000x128_S1000x12_0_4
      = BoxHead.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  funext y
  obtain ⟨r, q, rfl⟩ : ∃ (r : Fin 1000) (q : Fin 12), y = ix2 r q := ⟨y 0, y 1, eq_ix2 y⟩
  rw [KHost.slice_hi, BoxHead.outArr_apply]
  show rowOut m c r _ = _
  unfold rowOut
  rw [hiddenK_eq]
  exact head_congr _ _ _ _ _ _ _ (fun j => KHost.V_v1_hi m c j q) (KHost.V_v4_hi m c q)

/-- THE RUN, READ: every weakly fair execution ends with the two results at the two heads of the arguments, the
    arguments unchanged. -/
theorem run : θ_run defs (onTc (τ := τ) (main (F := Ideal))) ⟨m, fun _ => 0, ρ⟩ fun r => ∀ c : Dev nD,
      r.2.mem ((c.tc : Thread nD τ).loc main_v8) = BoxHead.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v9) = BoxHead.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v8 (Pipeline.mem_restRefs_of main_v8 (by decide) (by decide))).trans ((tail_v8 m c).trans (res8_eq m c)),
      ((h c).2 main_v9 (Pipeline.mem_restRefs_of main_v9 (by decide) (by decide))).trans ((tail_v9 m c).trans (res9_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KFinal

end
-- ==== Proof.lean ====
/-
  A two-layer perceptron with two linear heads on 1000 rows of 50176 features: one fused kernel against the plain
  reference, over the extended reals.

  The reference computes, row by row, `h₁ = max (x·W₁ + b₁) 0`, `h₂ = max (h₁·W₂ + b₂) 0`, and the two heads
  `h₂·Wc + bc` (4 columns) and `h₂·Wr + br` (12 columns). The kernel walks a grid of 5 row blocks × 14 stretches of the
  50176 contraction indices: along a row block it accumulates `x·W₁` stretch by stretch into a 200×1024 accumulator
  (cleared at the first stretch), and after the last stretch applies both rectified layers and ONE 128-column head whose
  weights are `[Wc | Wr | padding]` and whose bias is `[bc | br | padding]`; the host keeps columns 0–3 and 4–15.

  Why the two agree at every input: the sum over the 50176 indices is the sum over the 14 stretches of the sums inside
  each (addition of extended reals is commutative and associative: `BoxHead.sum_stretches`), so the finished
  accumulator is `x·W₁` (by induction along the grid: `KAcc.acc_eq`); the layers after it are the same operations on
  both sides; and in columns 0–3 and 4–15 the padded head reads exactly `Wc, bc` and `Wr, br`, the padding never
  being read back. No step divides, cancels or distributes, so the inputs' finiteness is not used.

  The frames of both kernel programs are the generated ones; the reference's frame is its generated run with the
  results dropped; the idealization rewrote nothing.
-/
import proofs.«144970_g2138893714091_cont_8to1_871_2_alg».proof.Defs
import proofs.«144970_g2138893714091_cont_8to1_871_2_alg».proof.Proof.Gen.Kernel
import proofs.«144970_g2138893714091_cont_8to1_871_2_alg».proof.Proof.Gen.Kernel.Skeleton
import proofs.«144970_g2138893714091_cont_8to1_871_2_alg».proof.Proof.Gen.Kernel.Launch
import proofs.«144970_g2138893714091_cont_8to1_871_2_alg».proof.Proof.Gen.Kernel.Points
import proofs.«144970_g2138893714091_cont_8to1_871_2_alg».proof.Proof.Gen.Kernel.Frame
import proofs.«144970_g2138893714091_cont_8to1_871_2_alg».proof.Proof.Gen.KernelIdeal
import proofs.«144970_g2138893714091_cont_8to1_871_2_alg».proof.Proof.Gen.KernelIdeal.Skeleton
import proofs.«144970_g2138893714091_cont_8to1_871_2_alg».proof.Proof.Gen.KernelIdeal.Launch
import proofs.«144970_g2138893714091_cont_8to1_871_2_alg».proof.Proof.Gen.KernelIdeal.Points
import proofs.«144970_g2138893714091_cont_8to1_871_2_alg».proof.Proof.Gen.KernelIdeal.Frame
import proofs.«144970_g2138893714091_cont_8to1_871_2_alg».proof.Proof.Gen.ReferenceIdeal
import proofs.«144970_g2138893714091_cont_8to1_871_2_alg».proof.Proof.Gen.Pre_finite_inputs
import proofs.«144970_g2138893714091_cont_8to1_871_2_alg».proof.Proof.Gen.ReferenceIdeal.Run
import proofs.«144970_g2138893714091_cont_8to1_871_2_alg».proof.Proof.Gen.ReferenceIdeal.Read
import proofs.«144970_g2138893714091_cont_8to1_871_2_alg».proof.Proof.SpecArr
import proofs.«144970_g2138893714091_cont_8to1_871_2_alg».proof.Proof.RefSide
import proofs.«144970_g2138893714091_cont_8to1_871_2_alg».proof.Proof.KFinal
import Idealize.ShloMosaic.Adequacy
import Idealize.ShloMosaic.Init

noncomputable section

namespace Cert.Proof

open Idealize.ShloMosaic Idealize.SL.Sem Idealize.ShloMosaic.ValueIdx

/-- The reference's 4-wide result is the first head on every row's hidden layer. -/
theorem ref_v15 (x0 : (⟨Cert.ReferenceIdeal.S1000x50176, .f32⟩ : BufTy).Contents (Elt Ideal)) (x1 : (⟨Cert.ReferenceIdeal.S50176x1024, .f32⟩ : BufTy).Contents (Elt Ideal)) (x2 : (⟨Cert.ReferenceIdeal.S1024, .f32⟩ : BufTy).Contents (Elt Ideal)) (x3 : (⟨Cert.ReferenceIdeal.S1024x1024, .f32⟩ : BufTy).Contents (Elt Ideal))
    (x4 : (⟨Cert.ReferenceIdeal.S1024, .f32⟩ : BufTy).Contents (Elt Ideal)) (x5 : (⟨Cert.ReferenceIdeal.S1024x4, .f32⟩ : BufTy).Contents (Elt Ideal)) (x6 : (⟨Cert.ReferenceIdeal.S4, .f32⟩ : BufTy).Contents (Elt Ideal)) :
    Cert.ReferenceIdeal.Read.val_main_v15 (F := Ideal) x0 x1 x2 x3 x4 x5 x6 = BoxHead.outArr x0 x1 x2 x3 x4 x5 x6 := by
  funext y
  obtain ⟨r, q, rfl⟩ : ∃ (r : Fin 1000) (q : Fin 4), y = ix2 r q := ⟨y 0, y 1, eq_ix2 y⟩
  exact Cert.ReferenceIdeal.RefSpec.v15_apply x0 x1 x2 x3 x4 x5 x6 r q

/-- The reference's 12-wide result is the second head on every row's hidden layer. -/
theorem ref_v19 (x0 : (⟨Cert.ReferenceIdeal.S1000x50176, .f32⟩ : BufTy).Contents (Elt Ideal)) (x1 : (⟨Cert.ReferenceIdeal.S50176x1024, .f32⟩ : BufTy).Contents (Elt Ideal)) (x2 : (⟨Cert.ReferenceIdeal.S1024, .f32⟩ : BufTy).Contents (Elt Ideal)) (x3 : (⟨Cert.ReferenceIdeal.S1024x1024, .f32⟩ : BufTy).Contents (Elt Ideal))
    (x4 : (⟨Cert.ReferenceIdeal.S1024, .f32⟩ : BufTy).Contents (Elt Ideal)) (x7 : (⟨Cert.ReferenceIdeal.S1024x12, .f32⟩ : BufTy).Contents (Elt Ideal)) (x8 : (⟨Cert.ReferenceIdeal.S12, .f32⟩ : BufTy).Contents (Elt Ideal)) :
    Cert.ReferenceIdeal.Read.val_main_v19 (F := Ideal) x0 x1 x2 x3 x4 x7 x8 = BoxHead.outArr x0 x1 x2 x3 x4 x7 x8 := by
  funext y
  obtain ⟨r, q, rfl⟩ : ∃ (r : Fin 1000) (q : Fin 12), y = ix2 r q := ⟨y 0, y 1, eq_ix2 y⟩
  exact Cert.ReferenceIdeal.RefSpec.v19_apply x0 x1 x2 x3 x4 x7 x8 r q

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the two heads of the arguments' hidden layers: the kernel by `KFinal.run`, the reference by
    its run read one operation at a time, on arguments that agree. -/
theorem algebraic : Cert.algebraic_KernelIdeal_ReferenceIdeal := by
  intro m ρ m' ρ' _ hagree
  refine ⟨fun c => BoxHead.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => BoxHead.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KFinal.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8⟩ := hagree c
    rw [e0, e1, e2, e3, e4, e5, e6]
    exact (Cert.ReferenceIdeal.Read.val_main_v15_eq _ _ _ _ _ _ _).trans (ref_v15 _ _ _ _ _ _ _)
  · obtain ⟨e0, e1, e2, e3, e4, e5, e6, e7, e8⟩ := hagree c
    rw [e0, e1, e2, e3, e4, e7, e8]
    exact (Cert.ReferenceIdeal.Read.val_main_v19_eq _ _ _ _ _ _ _).trans (ref_v19 _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
